-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x29x128 : Shape := ⟨3, ![60000, 29, 128]⟩
abbrev S60000x128 : Shape := ⟨2, ![60000, 128]⟩
abbrev S896x896 : Shape := ⟨2, ![896, 896]⟩
abbrev S896 : Shape := ⟨1, ![896]⟩
abbrev S768x1536 : Shape := ⟨2, ![768, 1536]⟩
abbrev S640x1280 : Shape := ⟨2, ![640, 1280]⟩
abbrev S_ : Shape := ⟨0, ![]⟩

class Facts : Prop where
  bcast_S_S60000x29x128 : S_.BroadcastsInDim S60000x29x128 (![] : Fin 0 → Fin S60000x29x128.rank)
  reducesTo_S60000x29x128_S_d0_1_2 : S60000x29x128.ReducesTo [0, 1, 2] S_
  h_S_ : 0 < S_.numel
  bcast_S_S60000x128 : S_.BroadcastsInDim S60000x128 (![] : Fin 0 → Fin S60000x128.rank)
  reducesTo_S60000x128_S_d0_1 : S60000x128.ReducesTo [0, 1] S_
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_
  bcast_S_S768x1536 : S_.BroadcastsInDim S768x1536 (![] : Fin 0 → Fin S768x1536.rank)
  reducesTo_S768x1536_S_d0_1 : S768x1536.ReducesTo [0, 1] S_
  bcast_S_S640x1280 : S_.BroadcastsInDim S640x1280 (![] : Fin 0 → Fin S640x1280.rank)
  reducesTo_S640x1280_S_d0_1 : S640x1280.ReducesTo [0, 1] S_

variable [Facts]

def fn_part1 {F : FTy → Type} [FloatOps F] (main_arg4 : FVec F S768x1536 .f32) (main_arg5 : FVec F S640x1280 .f32) (main_v13 : IVec S_ 1) (main_v16 : IVec S896 1) : IVec S_ 1 :=
  let main_c_5 : IVec S_ 1 := constantI S_ 1 1#1
  let main_v17 : IVec S_ 1 := (fun x v => Host.reduce IntOp.andi x v reducesTo_S896_S_d0 h_S_) main_v16 main_c_5
  let main_v18 : IVec S_ 1 := andi main_v13 main_v17
  let main_v19 : FVec F S768x1536 .f32 := Host.absf main_arg4
  let main_cst_6 : FVec F S_ .f32 := constant S_ .f32 0x7F800000#32
  let main_v20 : FVec F S768x1536 .f32 := broadcastInDim S768x1536 ![] bcast_S_S768x1536 main_cst_6
  let main_v21 : IVec S768x1536 1 := cmpf .olt main_v19 main_v20
  let main_c_7 : IVec S_ 1 := constantI S_ 1 1#1
  let main_v22 : IVec S_ 1 := (fun x v => Host.reduce IntOp.andi x v reducesTo_S768x1536_S_d0_1 h_S_) main_v21 main_c_7
  let main_v23 : IVec S_ 1 := andi main_v18 main_v22
  let main_v24 : FVec F S640x1280 .f32 := Host.absf main_arg5
  let main_cst_8 : FVec F S_ .f32 := constant S_ .f32 0x7F800000#32
  let main_v25 : FVec F S640x1280 .f32 := broadcastInDim S640x1280 ![] bcast_S_S640x1280 main_cst_8
  let main_v26 : IVec S640x1280 1 := cmpf .olt main_v24 main_v25
  let main_c_9 : IVec S_ 1 := constantI S_ 1 1#1
  let main_v27 : IVec S_ 1 := (fun x v => Host.reduce IntOp.andi x v reducesTo_S640x1280_S_d0_1 h_S_) main_v26 main_c_9
  let main_v28 : IVec S_ 1 := andi main_v23 main_v27
  main_v28

def fn {F : FTy → Type} [FloatOps F] (main_arg0 : FVec F S60000x29x128 .f32) (main_arg1 : FVec F S60000x128 .f32) (main_arg2 : FVec F S896x896 .f32) (main_arg3 : FVec F S896 .f32) (main_arg4 : FVec F S768x1536 .f32) (main_arg5 : FVec F S640x1280 .f32) : IVec S_ 1 :=
  let main_v0 : FVec F S60000x29x128 .f32 := Host.absf main_arg0
  let main_cst : FVec F S_ .f32 := constant S_ .f32 0x7F800000#32
  let main_v1 : FVec F S60000x29x128 .f32 := broadcastInDim S60000x29x128 ![] bcast_S_S60000x29x128 main_cst
  let main_v2 : IVec S60000x29x128 1 := cmpf .olt main_v0 main_v1
  let main_c : IVec S_ 1 := constantI S_ 1 1#1
  let main_v3 : IVec S_ 1 := (fun x v => Host.reduce IntOp.andi x v reducesTo_S60000x29x128_S_d0_1_2 h_S_) main_v2 main_c
  let main_v4 : FVec F S60000x128 .f32 := Host.absf main_arg1
  let main_cst_0 : FVec F S_ .f32 := constant S_ .f32 0x7F800000#32
  let main_v5 : FVec F S60000x128 .f32 := broadcastInDim S60000x128 ![] bcast_S_S60000x128 main_cst_0
  let main_v6 : IVec S60000x128 1 := cmpf .olt main_v4 main_v5
  let main_c_1 : IVec S_ 1 := constantI S_ 1 1#1
  let main_v7 : IVec S_ 1 := (fun x v => Host.reduce IntOp.andi x v reducesTo_S60000x128_S_d0_1 h_S_) main_v6 main_c_1
  let main_v8 : IVec S_ 1 := andi main_v3 main_v7
  let main_v9 : FVec F S896x896 .f32 := Host.absf main_arg2
  let main_cst_2 : FVec F S_ .f32 := constant S_ .f32 0x7F800000#32
  let main_v10 : FVec F S896x896 .f32 := broadcastInDim S896x896 ![] bcast_S_S896x896 main_cst_2
  let main_v11 : IVec S896x896 1 := cmpf .olt main_v9 main_v10
  let main_c_3 : IVec S_ 1 := constantI S_ 1 1#1
  let main_v12 : IVec S_ 1 := (fun x v => Host.reduce IntOp.andi x v reducesTo_S896x896_S_d0_1 h_S_) main_v11 main_c_3
  let main_v13 : IVec S_ 1 := andi main_v8 main_v12
  let main_v14 : FVec F S896 .f32 := Host.absf main_arg3
  let main_cst_4 : FVec F S_ .f32 := constant S_ .f32 0x7F800000#32
  let main_v15 : FVec F S896 .f32 := broadcastInDim S896 ![] bcast_S_S896 main_cst_4
  let main_v16 : IVec S896 1 := cmpf .olt main_v14 main_v15
  fn_part1 (F := F) main_arg4 main_arg5 main_v13 main_v16
-- ==== Kernel.lean ====
abbrev S60000x29x128 : Shape := ⟨3, ![60000, 29, 128]⟩
abbrev S60000x128 : Shape := ⟨2, ![60000, 128]⟩
abbrev S896x896 : Shape := ⟨2, ![896, 896]⟩
abbrev S896 : Shape := ⟨1, ![896]⟩
abbrev S768x1536 : Shape := ⟨2, ![768, 1536]⟩
abbrev S640x1280 : Shape := ⟨2, ![640, 1280]⟩
abbrev S60000x7x128 : Shape := ⟨3, ![60000, 7, 128]⟩
abbrev S60000x896 : Shape := ⟨2, ![60000, 896]⟩
abbrev S60000x6x128 : Shape := ⟨3, ![60000, 6, 128]⟩
abbrev S60000x768 : Shape := ⟨2, ![60000, 768]⟩
abbrev S60000x5x128 : Shape := ⟨3, ![60000, 5, 128]⟩
abbrev S60000x640 : Shape := ⟨2, ![60000, 640]⟩
abbrev S1x896 : Shape := ⟨2, ![1, 896]⟩
abbrev S400x896 : Shape := ⟨2, ![400, 896]⟩
abbrev S400x768 : Shape := ⟨2, ![400, 768]⟩
abbrev S400x640 : Shape := ⟨2, ![400, 640]⟩
abbrev S400x1536 : Shape := ⟨2, ![400, 1536]⟩
abbrev S400x1280 : Shape := ⟨2, ![400, 1280]⟩

abbrev nBuf : Space → Nat
  | .hbm => 31
  | .vmem => 24
  | .smem => 0
  | _ => 0

abbrev bufTy : (tb : Table) → Fin (tcTables nBuf tb) → BufTy
  | .hbm, ⟨0, _⟩ => ⟨S60000x29x128, .f32⟩
  | .hbm, ⟨1, _⟩ => ⟨S60000x128, .f32⟩
  | .hbm, ⟨2, _⟩ => ⟨S896x896, .f32⟩
  | .hbm, ⟨3, _⟩ => ⟨S896, .f32⟩
  | .hbm, ⟨4, _⟩ => ⟨S768x1536, .f32⟩
  | .hbm, ⟨5, _⟩ => ⟨S640x1280, .f32⟩
  | .hbm, ⟨6, _⟩ => ⟨S60000x7x128, .f32⟩
  | .hbm, ⟨7, _⟩ => ⟨S60000x896, .f32⟩
  | .hbm, ⟨8, _⟩ => ⟨S60000x6x128, .f32⟩
  | .hbm, ⟨9, _⟩ => ⟨S60000x768, .f32⟩
  | .hbm, ⟨10, _⟩ => ⟨S60000x6x128, .f32⟩
  | .hbm, ⟨11, _⟩ => ⟨S60000x768, .f32⟩
  | .hbm, ⟨12, _⟩ => ⟨S60000x5x128, .f32⟩
  | .hbm, ⟨13, _⟩ => ⟨S60000x640, .f32⟩
  | .hbm, ⟨14, _⟩ => ⟨S60000x5x128, .f32⟩
  | .hbm, ⟨15, _⟩ => ⟨S60000x640, .f32⟩
  | .hbm, ⟨16, _⟩ => ⟨S896x896, .bf16⟩
  | .hbm, ⟨17, _⟩ => ⟨S768x1536, .bf16⟩
  | .hbm, ⟨18, _⟩ => ⟨S640x1280, .bf16⟩
  | .hbm, ⟨19, _⟩ => ⟨S1x896, .f32⟩
  | .hbm, ⟨20, _⟩ => ⟨S60000x896, .f32⟩
  | .hbm, ⟨21, _⟩ => ⟨S60000x768, .f32⟩
  | .hbm, ⟨22, _⟩ => ⟨S60000x768, .f32⟩
  | .hbm, ⟨23, _⟩ => ⟨S60000x640, .f32⟩
  | .hbm, ⟨24, _⟩ => ⟨S60000x640, .f32⟩
  | .hbm, ⟨25, _⟩ => ⟨S60000x7x128, .f32⟩
  | .hbm, ⟨26, _⟩ => ⟨S60000x6x128, .f32⟩
  | .hbm, ⟨27, _⟩ => ⟨S60000x6x128, .f32⟩
  | .hbm, ⟨28, _⟩ => ⟨S60000x5x128, .f32⟩
  | .hbm, ⟨29, _⟩ => ⟨S60000x5x128, .f32⟩
  | .hbm, ⟨30, _⟩ => ⟨S60000x29x128, .f32⟩
  | .local _ .vmem, ⟨0, _⟩ => ⟨S400x896, .f32⟩
  | .local _ .vmem, ⟨1, _⟩ => ⟨S400x896, .f32⟩
  | .local _ .vmem, ⟨2, _⟩ => ⟨S400x768, .f32⟩
  | .local _ .vmem, ⟨3, _⟩ => ⟨S400x768, .f32⟩
  | .local _ .vmem, ⟨4, _⟩ => ⟨S400x768, .f32⟩
  | .local _ .vmem, ⟨5, _⟩ => ⟨S400x768, .f32⟩
  | .local _ .vmem, ⟨6, _⟩ => ⟨S400x640, .f32⟩
  | .local _ .vmem, ⟨7, _⟩ => ⟨S400x640, .f32⟩
  | .local _ .vmem, ⟨8, _⟩ => ⟨S400x640, .f32⟩
  | .local _ .vmem, ⟨9, _⟩ => ⟨S400x640, .f32⟩
  | .local _ .vmem, ⟨10, _⟩ => ⟨S896x896, .bf16⟩
  | .local _ .vmem, ⟨11, _⟩ => ⟨S1x896, .f32⟩
  | .local _ .vmem, ⟨12, _⟩ => ⟨S768x1536, .bf16⟩
  | .local _ .vmem, ⟨13, _⟩ => ⟨S640x1280, .bf16⟩
  | .local _ .vmem, ⟨14, _⟩ => ⟨S400x896, .f32⟩
  | .local _ .vmem, ⟨15, _⟩ => ⟨S400x896, .f32⟩
  | .local _ .vmem, ⟨16, _⟩ => ⟨S400x768, .f32⟩
  | .local _ .vmem, ⟨17, _⟩ => ⟨S400x768, .f32⟩
  | .local _ .vmem, ⟨18, _⟩ => ⟨S400x768, .f32⟩
  | .local _ .vmem, ⟨19, _⟩ => ⟨S400x768, .f32⟩
  | .local _ .vmem, ⟨20, _⟩ => ⟨S400x640, .f32⟩
  | .local _ .vmem, ⟨21, _⟩ => ⟨S400x640, .f32⟩
  | .local _ .vmem, ⟨22, _⟩ => ⟨S400x640, .f32⟩
  | .local _ .vmem, ⟨23, _⟩ => ⟨S400x640, .f32⟩
  | _, _ => ⟨S60000x29x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S896x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S400x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S400x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S60000x29x128_S60000x7x128_0_0_0 : S60000x29x128.Slices ![0, 0, 0] S60000x7x128
  shapeCasts_S60000x7x128_S60000x896 : S60000x7x128.ShapeCasts S60000x896
  slices_S60000x29x128_S60000x6x128_0_7_0 : S60000x29x128.Slices ![0, 7, 0] S60000x6x128
  shapeCasts_S60000x6x128_S60000x768 : S60000x6x128.ShapeCasts S60000x768
  slices_S60000x29x128_S60000x6x128_0_13_0 : S60000x29x128.Slices ![0, 13, 0] S60000x6x128
  slices_S60000x29x128_S60000x5x128_0_19_0 : S60000x29x128.Slices ![0, 19, 0] S60000x5x128
  shapeCasts_S60000x5x128_S60000x640 : S60000x5x128.ShapeCasts S60000x640
  slices_S60000x29x128_S60000x5x128_0_24_0 : S60000x29x128.Slices ![0, 24, 0] S60000x5x128
  bitsLt_bf16_f32 : FTy.bits .bf16 < FTy.bits .f32
  shapeCasts_S896_S1x896 : S896.ShapeCasts S1x896
  inb_S400x896_S400x896_0_0 : ∀ a, (![0, 0] : Fin 2 → Nat) a + S400x896.size a ≤ S400x896.size a
  h_S400x896 : 0 < S400x896.numel
  shapeCasts_S400x896_S400x896 : S400x896.ShapeCasts S400x896
  inb_S400x768_S400x768_0_0 : ∀ a, (![0, 0] : Fin 2 → Nat) a + S400x768.size a ≤ S400x768.size a
  h_S400x768 : 0 < S400x768.numel
  shapeCasts_S400x768_S400x768 : S400x768.ShapeCasts S400x768
  inb_S400x640_S400x640_0_0 : ∀ a, (![0, 0] : Fin 2 → Nat) a + S400x640.size a ≤ S400x640.size a
  h_S400x640 : 0 < S400x640.numel
  shapeCasts_S400x640_S400x640 : S400x640.ShapeCasts S400x640
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S400x896 : S1x896.Broadcasts S400x896
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  slices_S400x1536_o0_0_S400x768 : S400x1536.Slices ![0, 0] S400x768
  slices_S400x1536_o0_768_S400x768 : S400x1536.Slices ![0, 768] S400x768
  slices_S400x1280_o0_0_S400x640 : S400x1280.Slices ![0, 0] S400x640
  slices_S400x1280_o0_640_S400x640 : S400x1280.Slices ![0, 640] S400x640
  shapeCasts_S60000x896_S60000x7x128 : S60000x896.ShapeCasts S60000x7x128
  shapeCasts_S60000x768_S60000x6x128 : S60000x768.ShapeCasts S60000x6x128
  shapeCasts_S60000x640_S60000x5x128 : S60000x640.ShapeCasts S60000x5x128
  concatenates_S60000x7x128_S60000x6x128_S60000x6x128_S60000x5x128_S60000x5x128_S60000x29x128_d1 : Shape.Concatenates [S60000x7x128, S60000x6x128, S60000x6x128, S60000x5x128, S60000x5x128] S60000x29x128 1
  dot_S400x896_S896x896_S400x896_1_0_0_1_n_n_wf : DotDims.WF S400x896 S896x896 S400x896 [1] [0] [0] [1] [] []
  dot_S400x768_S768x1536_S400x1536_1_0_0_1_n_n_wf : DotDims.WF S400x768 S768x1536 S400x1536 [1] [0] [0] [1] [] []
  dot_S400x640_S640x1280_S400x1280_1_0_0_1_n_n_wf : DotDims.WF S400x640 S640x1280 S400x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x896.size a ≤ S60000x896.size a
  hwx0_0 : ∀ i : grid0.Coords, EltTy.bits .f32 = 32 ∨ (Rect.block (s := S60000x896) S400x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x768.size a ≤ S60000x768.size a
  hwx0_1 : ∀ i : grid0.Coords, EltTy.bits .f32 = 32 ∨ (Rect.block (s := S60000x768) S400x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x768.size a ≤ S60000x768.size a
  hwx0_2 : ∀ i : grid0.Coords, EltTy.bits .f32 = 32 ∨ (Rect.block (s := S60000x768) S400x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x640.size a ≤ S60000x640.size a
  hwx0_3 : ∀ i : grid0.Coords, EltTy.bits .f32 = 32 ∨ (Rect.block (s := S60000x640) S400x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x640.size a ≤ S60000x640.size a
  hwx0_4 : ∀ i : grid0.Coords, EltTy.bits .f32 = 32 ∨ (Rect.block (s := S60000x640) S400x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x896.size a ≤ S896x896.size a
  hwx0_5 : ∀ i : grid0.Coords, EltTy.bits .bf16 = 32 ∨ (Rect.block (s := S896x896) S896x896.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x896.size a ≤ S1x896.size a
  hwx0_6 : ∀ i : grid0.Coords, EltTy.bits .f32 = 32 ∨ (Rect.block (s := S1x896) S1x896.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x1536.size a ≤ S768x1536.size a
  hwx0_7 : ∀ i : grid0.Coords, EltTy.bits .bf16 = 32 ∨ (Rect.block (s := S768x1536) S768x1536.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640x1280.size a ≤ S640x1280.size a
  hwx0_8 : ∀ i : grid0.Coords, EltTy.bits .bf16 = 32 ∨ (Rect.block (s := S640x1280) S640x1280.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x896.size a ≤ S60000x896.size a
  hwx0_9 : ∀ i : grid0.Coords, EltTy.bits .f32 = 32 ∨ (Rect.block (s := S60000x896) S400x896.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x768.size a ≤ S60000x768.size a
  hwx0_10 : ∀ i : grid0.Coords, EltTy.bits .f32 = 32 ∨ (Rect.block (s := S60000x768) S400x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x768.size a ≤ S60000x768.size a
  hwx0_11 : ∀ i : grid0.Coords, EltTy.bits .f32 = 32 ∨ (Rect.block (s := S60000x768) S400x768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x640.size a ≤ S60000x640.size a
  hwx0_12 : ∀ i : grid0.Coords, EltTy.bits .f32 = 32 ∨ (Rect.block (s := S60000x640) S400x640.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x640.size a ≤ S60000x640.size a
  hwx0_13 : ∀ i : grid0.Coords, EltTy.bits .f32 = 32 ∨ (Rect.block (s := S60000x640) S400x640.size (cc0_transform_13 i) (hinb0_13 i)).WholeWords (EltTy.packing .f32)

variable [Facts₀]

def dot_S400x896_S896x896_S400x896_1_0_0_1_n_n : DotDims S400x896 S896x896 S400x896 where
  lhsContracting := [1]
  rhsContracting := [0]
  lhsNonContracting := [0]
  rhsNonContracting := [1]
  lhsBatch := []
  rhsBatch := []
  wf := dot_S400x896_S896x896_S400x896_1_0_0_1_n_n_wf
def dot_S400x768_S768x1536_S400x1536_1_0_0_1_n_n : DotDims S400x768 S768x1536 S400x1536 where
  lhsContracting := [1]
  rhsContracting := [0]
  lhsNonContracting := [0]
  rhsNonContracting := [1]
  lhsBatch := []
  rhsBatch := []
  wf := dot_S400x768_S768x1536_S400x1536_1_0_0_1_n_n_wf
def dot_S400x640_S640x1280_S400x1280_1_0_0_1_n_n : DotDims S400x640 S640x1280 S400x1280 where
  lhsContracting := [1]
  rhsContracting := [0]
  lhsNonContracting := [0]
  rhsNonContracting := [1]
  lhsBatch := []
  rhsBatch := []
  wf := dot_S400x640_S640x1280_S400x1280_1_0_0_1_n_n_wf

abbrev win0_0 : Pipeline.Window sig grid0 :=
  Pipeline.Window.ofSpec (Memref.whole main_v1) S400x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S400x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S400x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S400x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S400x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S896x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S768x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S640x1280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S400x896.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S400x768.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S400x768.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_3) S400x640.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_4) S400x640.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S60000x29x128 : Shape := ⟨3, ![60000, 29, 128]⟩
abbrev S60000x128 : Shape := ⟨2, ![60000, 128]⟩
abbrev S896x896 : Shape := ⟨2, ![896, 896]⟩
abbrev S896 : Shape := ⟨1, ![896]⟩
abbrev S768x1536 : Shape := ⟨2, ![768, 1536]⟩
abbrev S640x1280 : Shape := ⟨2, ![640, 1280]⟩
abbrev S60000x7x128 : Shape := ⟨3, ![60000, 7, 128]⟩
abbrev S60000x12x128 : Shape := ⟨3, ![60000, 12, 128]⟩
abbrev S60000x10x128 : Shape := ⟨3, ![60000, 10, 128]⟩
abbrev S60000x896 : Shape := ⟨2, ![60000, 896]⟩
abbrev S1x896 : Shape := ⟨2, ![1, 896]⟩
abbrev S60000x2x768 : Shape := ⟨3, ![60000, 2, 768]⟩
abbrev S60000x2x1536 : Shape := ⟨3, ![60000, 2, 1536]⟩
abbrev S60000x4x768 : Shape := ⟨3, ![60000, 4, 768]⟩
abbrev S60000x1x768 : Shape := ⟨3, ![60000, 1, 768]⟩
abbrev S60000x768 : Shape := ⟨2, ![60000, 768]⟩
abbrev S60000x6x128 : Shape := ⟨3, ![60000, 6, 128]⟩
abbrev S60000x2x640 : Shape := ⟨3, ![60000, 2, 640]⟩
abbrev S60000x2x1280 : Shape := ⟨3, ![60000, 2, 1280]⟩
abbrev S60000x4x640 : Shape := ⟨3, ![60000, 4, 640]⟩
abbrev S60000x1x640 : Shape := ⟨3, ![60000, 1, 640]⟩
abbrev S60000x640 : Shape := ⟨2, ![60000, 640]⟩
abbrev S60000x5x128 : Shape := ⟨3, ![60000, 5, 128]⟩

abbrev nBuf : Space → Nat
  | .hbm => 46
  | .vmem => 0
  | .smem => 0
  | _ => 0

abbrev bufTy : (tb : Table) → Fin (tcTables nBuf tb) → BufTy
  | .hbm, ⟨0, _⟩ => ⟨S60000x29x128, .f32⟩
  | .hbm, ⟨1, _⟩ => ⟨S60000x128, .f32⟩
  | .hbm, ⟨2, _⟩ => ⟨S896x896, .f32⟩
  | .hbm, ⟨3, _⟩ => ⟨S896, .f32⟩
  | .hbm, ⟨4, _⟩ => ⟨S768x1536, .f32⟩
  | .hbm, ⟨5, _⟩ => ⟨S640x1280, .f32⟩
  | .hbm, ⟨6, _⟩ => ⟨S60000x7x128, .f32⟩
  | .hbm, ⟨7, _⟩ => ⟨S60000x12x128, .f32⟩
  | .hbm, ⟨8, _⟩ => ⟨S60000x10x128, .f32⟩
  | .hbm, ⟨9, _⟩ => ⟨S60000x896, .f32⟩
  | .hbm, ⟨10, _⟩ => ⟨S60000x896, .f32⟩
  | .hbm, ⟨11, _⟩ => ⟨S1x896, .f32⟩
  | .hbm, ⟨12, _⟩ => ⟨S60000x896, .f32⟩
  | .hbm, ⟨13, _⟩ => ⟨S60000x896, .f32⟩
  | .hbm, ⟨14, _⟩ => ⟨S60000x7x128, .f32⟩
  | .hbm, ⟨15, _⟩ => ⟨S60000x2x768, .f32⟩
  | .hbm, ⟨16, _⟩ => ⟨S60000x2x1536, .f32⟩
  | .hbm, ⟨17, _⟩ => ⟨S60000x4x768, .f32⟩
  | .hbm, ⟨18, _⟩ => ⟨S60000x1x768, .f32⟩
  | .hbm, ⟨19, _⟩ => ⟨S60000x768, .f32⟩
  | .hbm, ⟨20, _⟩ => ⟨S60000x1x768, .f32⟩
  | .hbm, ⟨21, _⟩ => ⟨S60000x768, .f32⟩
  | .hbm, ⟨22, _⟩ => ⟨S60000x1x768, .f32⟩
  | .hbm, ⟨23, _⟩ => ⟨S60000x768, .f32⟩
  | .hbm, ⟨24, _⟩ => ⟨S60000x1x768, .f32⟩
  | .hbm, ⟨25, _⟩ => ⟨S60000x768, .f32⟩
  | .hbm, ⟨26, _⟩ => ⟨S60000x768, .f32⟩
  | .hbm, ⟨27, _⟩ => ⟨S60000x6x128, .f32⟩
  | .hbm, ⟨28, _⟩ => ⟨S60000x768, .f32⟩
  | .hbm, ⟨29, _⟩ => ⟨S60000x6x128, .f32⟩
  | .hbm, ⟨30, _⟩ => ⟨S60000x2x640, .f32⟩
  | .hbm, ⟨31, _⟩ => ⟨S60000x2x1280, .f32⟩
  | .hbm, ⟨32, _⟩ => ⟨S60000x4x640, .f32⟩
  | .hbm, ⟨33, _⟩ => ⟨S60000x1x640, .f32⟩
  | .hbm, ⟨34, _⟩ => ⟨S60000x640, .f32⟩
  | .hbm, ⟨35, _⟩ => ⟨S60000x1x640, .f32⟩
  | .hbm, ⟨36, _⟩ => ⟨S60000x640, .f32⟩
  | .hbm, ⟨37, _⟩ => ⟨S60000x1x640, .f32⟩
  | .hbm, ⟨38, _⟩ => ⟨S60000x640, .f32⟩
  | .hbm, ⟨39, _⟩ => ⟨S60000x1x640, .f32⟩
  | .hbm, ⟨40, _⟩ => ⟨S60000x640, .f32⟩
  | .hbm, ⟨41, _⟩ => ⟨S60000x640, .f32⟩
  | .hbm, ⟨42, _⟩ => ⟨S60000x5x128, .f32⟩
  | .hbm, ⟨43, _⟩ => ⟨S60000x640, .f32⟩
  | .hbm, ⟨44, _⟩ => ⟨S60000x5x128, .f32⟩
  | .hbm, ⟨45, _⟩ => ⟨S60000x29x128, .f32⟩
  | _, _ => ⟨S60000x29x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]

class Facts₀ : Prop where
  slices_S60000x29x128_S60000x7x128_0_0_0 : S60000x29x128.Slices ![0, 0, 0] S60000x7x128
  slices_S60000x29x128_S60000x12x128_0_7_0 : S60000x29x128.Slices ![0, 7, 0] S60000x12x128
  slices_S60000x29x128_S60000x10x128_0_19_0 : S60000x29x128.Slices ![0, 19, 0] S60000x10x128
  shapeCasts_S60000x7x128_S60000x896 : S60000x7x128.ShapeCasts S60000x896
  bcast_S896_S1x896_1 : S896.BroadcastsInDim S1x896 (![1] : Fin 1 → Fin S1x896.rank)
  bcast_S1x896_S60000x896_0_1 : S1x896.BroadcastsInDim S60000x896 (![0, 1] : Fin 2 → Fin S60000x896.rank)
  shapeCasts_S60000x896_S60000x7x128 : S60000x896.ShapeCasts S60000x7x128
  shapeCasts_S60000x12x128_S60000x2x768 : S60000x12x128.ShapeCasts S60000x2x768
  shapeCasts_S60000x2x1536_S60000x4x768 : S60000x2x1536.ShapeCasts S60000x4x768
  slices_S60000x4x768_S60000x1x768_0_0_0 : S60000x4x768.Slices ![0, 0, 0] S60000x1x768
  shapeCasts_S60000x1x768_S60000x768 : S60000x1x768.ShapeCasts S60000x768
  slices_S60000x4x768_S60000x1x768_0_1_0 : S60000x4x768.Slices ![0, 1, 0] S60000x1x768
  slices_S60000x4x768_S60000x1x768_0_2_0 : S60000x4x768.Slices ![0, 2, 0] S60000x1x768
  slices_S60000x4x768_S60000x1x768_0_3_0 : S60000x4x768.Slices ![0, 3, 0] S60000x1x768
  shapeCasts_S60000x768_S60000x6x128 : S60000x768.ShapeCasts S60000x6x128
  shapeCasts_S60000x10x128_S60000x2x640 : S60000x10x128.ShapeCasts S60000x2x640
  shapeCasts_S60000x2x1280_S60000x4x640 : S60000x2x1280.ShapeCasts S60000x4x640
  slices_S60000x4x640_S60000x1x640_0_0_0 : S60000x4x640.Slices ![0, 0, 0] S60000x1x640
  shapeCasts_S60000x1x640_S60000x640 : S60000x1x640.ShapeCasts S60000x640
  slices_S60000x4x640_S60000x1x640_0_1_0 : S60000x4x640.Slices ![0, 1, 0] S60000x1x640
  slices_S60000x4x640_S60000x1x640_0_2_0 : S60000x4x640.Slices ![0, 2, 0] S60000x1x640
  slices_S60000x4x640_S60000x1x640_0_3_0 : S60000x4x640.Slices ![0, 3, 0] S60000x1x640
  shapeCasts_S60000x640_S60000x5x128 : S60000x640.ShapeCasts S60000x5x128
  concatenates_S60000x7x128_S60000x6x128_S60000x6x128_S60000x5x128_S60000x5x128_S60000x29x128_d1 : Shape.Concatenates [S60000x7x128, S60000x6x128, S60000x6x128, S60000x5x128, S60000x5x128] S60000x29x128 1
  dot_S60000x896_S896x896_S60000x896_1_0_0_1_n_n_wf : DotDims.WF S60000x896 S896x896 S60000x896 [1] [0] [0] [1] [] []
  dot_S60000x2x768_S768x1536_S60000x2x1536_2_0_01_1_n_n_wf : DotDims.WF S60000x2x768 S768x1536 S60000x2x1536 [2] [0] [0, 1] [1] [] []
  dot_S60000x2x640_S640x1280_S60000x2x1280_2_0_01_1_n_n_wf : DotDims.WF S60000x2x640 S640x1280 S60000x2x1280 [2] [0] [0, 1] [1] [] []

variable [Facts₀]

def dot_S60000x896_S896x896_S60000x896_1_0_0_1_n_n : DotDims S60000x896 S896x896 S60000x896 where
  lhsContracting := [1]
  rhsContracting := [0]
  lhsNonContracting := [0]
  rhsNonContracting := [1]
  lhsBatch := []
  rhsBatch := []
  wf := dot_S60000x896_S896x896_S60000x896_1_0_0_1_n_n_wf
def dot_S60000x2x768_S768x1536_S60000x2x1536_2_0_01_1_n_n : DotDims S60000x2x768 S768x1536 S60000x2x1536 where
  lhsContracting := [2]
  rhsContracting := [0]
  lhsNonContracting := [0, 1]
  rhsNonContracting := [1]
  lhsBatch := []
  rhsBatch := []
  wf := dot_S60000x2x768_S768x1536_S60000x2x1536_2_0_01_1_n_n_wf
def dot_S60000x2x640_S640x1280_S60000x2x1280_2_0_01_1_n_n : DotDims S60000x2x640 S640x1280 S60000x2x1280 where
  lhsContracting := [2]
  rhsContracting := [0]
  lhsNonContracting := [0, 1]
  rhsNonContracting := [1]
  lhsBatch := []
  rhsBatch := []
  wf := dot_S60000x2x640_S640x1280_S60000x2x1280_2_0_01_1_n_n_wf

class Facts : Prop extends Facts₀ where

variable [Facts]
-- ==== Proof.RegionData.lean ====
/-
  The one kernel region of the idealized kernel, as data: what every buffer holds when the region is entered
  (the host lines before it applied to the launch memory), each window's block at a grid point, and what the body
  leaves in the five result buffers at a point as a function of the nine input blocks — the bias-added product of
  the first feature group, and for each complex pair the difference and the sum of the two halves of two products.
-/
import proofs.«134896_j3470333575341_1_alg».proof.Proof.Gen.KernelIdeal.Launch
import proofs.«134896_j3470333575341_1_alg».proof.Proof.Gen.KernelIdeal.Skeleton
import proofs.«134896_j3470333575341_1_alg».proof.Proof.Gen.KernelIdeal.Points
import Idealize.ShloMosaic.Lib.Pipeline.FrameSuffix
import Idealize.ShloMosaic.Lib.Pipeline.FrameBody

noncomputable section

namespace Cert.KernelIdeal.Region

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s buffers when the region is entered: the launch memory after the fourteen host lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each result buffer, from the input blocks -/

/-- Rows of the first group times its weights, plus the bias row. -/
def res0 (x0 : Vec F S400x896 .f32) (w0 : Vec F S896x896 .bf16) (b : Vec F S1x896 .f32) : Vec F S400x896 .f32 :=
  k0_pay7 x0 w0 b
/-- First pair, real part: left half of the real rows' product minus right half of the imaginary rows' product. -/
def res1r (xr xi : Vec F S400x768 .f32) (w1 : Vec F S768x1536 .bf16) : Vec F S400x768 .f32 :=
  k0_pay2 (k0_pay8 xr w1) (k0_pay9 xi w1)
/-- First pair, imaginary part: left half of the imaginary rows' product plus right half of the real rows' product. -/
def res1i (xr xi : Vec F S400x768 .f32) (w1 : Vec F S768x1536 .bf16) : Vec F S400x768 .f32 :=
  k0_pay3 (k0_pay8 xr w1) (k0_pay9 xi w1)
/-- Second pair, real part. -/
def res2r (xr xi : Vec F S400x640 .f32) (w2 : Vec F S640x1280 .bf16) : Vec F S400x640 .f32 :=
  k0_pay4 (k0_pay6 xi) (k0_pay10 xr w2) (k0_pay11 w2)
/-- Second pair, imaginary part. -/
def res2i (xr xi : Vec F S400x640 .f32) (w2 : Vec F S640x1280 .bf16) : Vec F S400x640 .f32 :=
  k0_pay5 (k0_pay6 xi) (k0_pay10 xr w2) (k0_pay11 w2)

/-! ## The region's proof data -/

/-- On core `c`: the arrays as the region finds them; after the body at point `t` each input buffer still at its
    block and each result buffer at the body's result of the input blocks; the invariant is the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res0 (iblk m c 0 t) (iblk m c 5 t) (iblk m c 6 t)
    | ⟨10, _⟩ => res1r (iblk m c 1 t) (iblk m c 2 t) (iblk m c 7 t)
    | ⟨11, _⟩ => res1i (iblk m c 1 t) (iblk m c 2 t) (iblk m c 7 t)
    | ⟨12, _⟩ => res2r (iblk m c 3 t) (iblk m c 4 t) (iblk m c 8 t)
    | ⟨13, _⟩ => res2i (iblk m c 3 t) (iblk m c 4 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = res0 (iblk m c 0 t) (iblk m c 5 t) (iblk m c 6 t) := by dsimp only [dats]
theorem after_10 (c : Dev nD) (t : Fin cfg0.N) :
    (dats m 0 c).after 10 t = res1r (iblk m c 1 t) (iblk m c 2 t) (iblk m c 7 t) := by dsimp only [dats]
theorem after_11 (c : Dev nD) (t : Fin cfg0.N) :
    (dats m 0 c).after 11 t = res1i (iblk m c 1 t) (iblk m c 2 t) (iblk m c 7 t) := by dsimp only [dats]
theorem after_12 (c : Dev nD) (t : Fin cfg0.N) :
    (dats m 0 c).after 12 t = res2r (iblk m c 3 t) (iblk m c 4 t) (iblk m c 8 t) := by dsimp only [dats]
theorem after_13 (c : Dev nD) (t : Fin cfg0.N) :
    (dats m 0 c).after 13 t = res2i (iblk m c 3 t) (iblk m c 4 t) (iblk m c 8 t) := by dsimp only [dats]

end Cert.KernelIdeal.Region

end
-- ==== Proof.RegionRun.lean ====
/-
  The kernel region runs: at every grid point the body, called on the windows' current buffers with each input
  buffer holding its block, loads the nine blocks, forms the five results and stores each over the whole of its
  result buffer, reading nothing it has not been handed and leaving the inputs as they were. With that, the
  program — host lines, the region over its 150 points, host lines — terminates without a fault from any memory;
  every result array ends at the blocks the body wrote, and the argument arrays, which no host line writes and no
  window stages, end as launched.
-/
import proofs.«134896_j3470333575341_1_alg».proof.Proof.RegionData
import Idealize.ShloMosaic.Lib.Pipeline.Value
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the region continued by the six later lines, entered at the contents the fourteen earlier
    lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.reshape_writes, StableHlo.nary_writes, Finset.mem_singleton] <;> exact StableHlo.devRef_ne_of_ne (by decide)

/-! ## Each input buffer holds its block -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body on any whole buffers -/

theorem zero_off2 : (![0, 0] : Fin 2 → Nat) = fun _ => 0 := by funext a; fin_cases a <;> rfl

/-- A store over the whole of a buffer leaves the stored value: its one piece covers every index. -/
theorem whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

set_option maxHeartbeats 4000000 in
/-- The body, its input buffers at `x0 … x4`, `w0`, `b`, `w1`, `w2` and its result buffers at anything, runs to the
    continuation with the inputs as they were and the five results in the result buffers. -/
theorem sound_kernel (c : Dev nD) (E : Set ℕ) (i : grid0.Coords)
    (arg1 : Memref sig .tc .vmem S400x896 .f32) (harg1 : arg1.IsWhole) (arg2 : Memref sig .tc .vmem S400x768 .f32) (harg2 : arg2.IsWhole)
    (arg3 : Memref sig .tc .vmem S400x768 .f32) (harg3 : arg3.IsWhole) (arg4 : Memref sig .tc .vmem S400x640 .f32) (harg4 : arg4.IsWhole)
    (arg5 : Memref sig .tc .vmem S400x640 .f32) (harg5 : arg5.IsWhole) (arg6 : Memref sig .tc .vmem S896x896 .bf16) (harg6 : arg6.IsWhole)
    (arg7 : Memref sig .tc .vmem S1x896 .f32) (harg7 : arg7.IsWhole) (arg8 : Memref sig .tc .vmem S768x1536 .bf16) (harg8 : arg8.IsWhole)
    (arg9 : Memref sig .tc .vmem S640x1280 .bf16) (harg9 : arg9.IsWhole) (arg10 : Memref sig .tc .vmem S400x896 .f32) (harg10 : arg10.IsWhole)
    (arg11 : Memref sig .tc .vmem S400x768 .f32) (harg11 : arg11.IsWhole) (arg12 : Memref sig .tc .vmem S400x768 .f32) (harg12 : arg12.IsWhole)
    (arg13 : Memref sig .tc .vmem S400x640 .f32) (harg13 : arg13.IsWhole) (arg14 : Memref sig .tc .vmem S400x640 .f32) (harg14 : arg14.IsWhole)
    (x0 : Vec F S400x896 .f32) (x1 x2 : Vec F S400x768 .f32) (x3 x4 : Vec F S400x640 .f32)
    (w0 : Vec F S896x896 .bf16) (b : Vec F S1x896 .f32) (w1 : Vec F S768x1536 .bf16) (w2 : Vec F S640x1280 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare w0
        ∗ owns (c : Thread nD τ) arg7 fullShare b ∗ owns (c : Thread nD τ) arg8 fullShare w1 ∗ owns (c : Thread nD τ) arg9 fullShare w2
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare w0
            ∗ owns (c : Thread nD τ) arg7 fullShare b ∗ owns (c : Thread nD τ) arg8 fullShare w1 ∗ owns (c : Thread nD τ) arg9 fullShare w2
            ∗ owns (c : Thread nD τ) arg10 fullShare (res0 x0 w0 b) ∗ owns (c : Thread nD τ) arg11 fullShare (res1r x1 x2 w1)
            ∗ owns (c : Thread nD τ) arg12 fullShare (res1i x1 x2 w1) ∗ owns (c : Thread nD τ) arg13 fullShare (res2r x3 x4 w2)
            ∗ owns (c : Thread nD τ) arg14 fullShare (res2i x3 x4 w2)) -∗ K ⟨⟩))
      ⊢ wp frame (wpE (defs₀ (F := F)) Variants.none c none) E
          (cc0__so2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__so2_kernel_eq_skeleton]; unfold cc0__so2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H10]
  · iexists _; isplitr
    swap; · iexact H10
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H11]
  · iexists _; isplitr
    swap; · iexact H11
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H12]
  · iexists _; isplitr
    swap; · iexact H12
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  · iexists _; isplitr
    swap; · iexact H13
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the input buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; each
    array of the region ends at what its blocks' write-backs leave, and every other unscoped buffer at what the later
    host lines leave of its contents at the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The arguments end as launched -/

/-- No host line writes argument 0 and no window stages it: it ends as launched. -/
theorem tail_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg0 (by intro w; fin_cases w <;> decide)]
  exact StableHlo.after_of_forall_not_mem (b := Proc.devRef .tc main_arg0) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg0 : main_arg0 ∈ Pipeline.restRefs sig spec0 :=
  Pipeline.mem_restRefs_of main_arg0 rfl (by intro w; fin_cases w <;> decide)

/-- No host line writes argument 1 and no window stages it: it ends as launched. -/
theorem tail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg1 (by intro w; fin_cases w <;> decide)]
  exact StableHlo.after_of_forall_not_mem (b := Proc.devRef .tc main_arg1) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg1 : main_arg1 ∈ Pipeline.restRefs sig spec0 :=
  Pipeline.mem_restRefs_of main_arg1 rfl (by intro w; fin_cases w <;> decide)

/-- No host line writes argument 2 and no window stages it: it ends as launched. -/
theorem tail_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg2 (by intro w; fin_cases w <;> decide)]
  exact StableHlo.after_of_forall_not_mem (b := Proc.devRef .tc main_arg2) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg2 : main_arg2 ∈ Pipeline.restRefs sig spec0 :=
  Pipeline.mem_restRefs_of main_arg2 rfl (by intro w; fin_cases w <;> decide)

/-- No host line writes argument 3 and no window stages it: it ends as launched. -/
theorem tail_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg3 (by intro w; fin_cases w <;> decide)]
  exact StableHlo.after_of_forall_not_mem (b := Proc.devRef .tc main_arg3) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg3 : main_arg3 ∈ Pipeline.restRefs sig spec0 :=
  Pipeline.mem_restRefs_of main_arg3 rfl (by intro w; fin_cases w <;> decide)

/-- No host line writes argument 4 and no window stages it: it ends as launched. -/
theorem tail_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg4 (by intro w; fin_cases w <;> decide)]
  exact StableHlo.after_of_forall_not_mem (b := Proc.devRef .tc main_arg4) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg4 : main_arg4 ∈ Pipeline.restRefs sig spec0 :=
  Pipeline.mem_restRefs_of main_arg4 rfl (by intro w; fin_cases w <;> decide)

/-- No host line writes argument 5 and no window stages it: it ends as launched. -/
theorem tail_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg5 (by intro w; fin_cases w <;> decide)]
  exact StableHlo.after_of_forall_not_mem (b := Proc.devRef .tc main_arg5) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg5 : main_arg5 ∈ Pipeline.restRefs sig spec0 :=
  Pipeline.mem_restRefs_of main_arg5 rfl (by intro w; fin_cases w <;> decide)

theorem rest_v20 : main_v20 ∈ Pipeline.restRefs sig spec0 :=
  Pipeline.mem_restRefs_of main_v20 rfl (by intro w; fin_cases w <;> decide)

/-- The run with the result buffer named and the arguments unchanged. -/
theorem run_named : θ_run defs (onTc (τ := τ) (main (F := F))) ⟨m, fun _ => 0, ρ⟩ (fun r => ∀ c : Dev nD,
      r.2.mem ((c.tc : Thread nD τ).loc main_v20) = Pipeline.afterTail₀ cfgs (dats m) 0 (V0 m) [hostOps1] c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v20 rest_v20,
      ((h c).2 main_arg0 rest_arg0).trans (tail_arg0 m c), ((h c).2 main_arg1 rest_arg1).trans (tail_arg1 m c),
      ((h c).2 main_arg2 rest_arg2).trans (tail_arg2 m c), ((h c).2 main_arg3 rest_arg3).trans (tail_arg3 m c),
      ((h c).2 main_arg4 rest_arg4).trans (tail_arg4 m c), ((h c).2 main_arg5 rest_arg5).trans (tail_arg5 m c)⟩) (run_main m ρ)

/-- The frame: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Region

end
-- ==== Proof.RegionDataB.lean ====
/-
  The one kernel region of the kernel as printed, as data: what every buffer holds when the region is entered
  (the host lines before it applied to the launch memory), each window's block at a grid point, and what the body
  leaves in the five result buffers at a point as a function of the nine input blocks — the bias-added product of
  the first feature group, and for each complex pair the difference and the sum of the two halves of two products.
-/
import proofs.«134896_j3470333575341_1_alg».proof.Proof.Gen.Kernel.Launch
import proofs.«134896_j3470333575341_1_alg».proof.Proof.Gen.Kernel.Skeleton
import proofs.«134896_j3470333575341_1_alg».proof.Proof.Gen.Kernel.Points
import Idealize.ShloMosaic.Lib.Pipeline.FrameSuffix
import Idealize.ShloMosaic.Lib.Pipeline.FrameBody

noncomputable section

namespace Cert.Kernel.Region

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s buffers when the region is entered: the launch memory after the fourteen host lines before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each result buffer, from the input blocks -/

/-- Rows of the first group times its weights, plus the bias row. -/
def res0 (x0 : Vec F S400x896 .f32) (w0 : Vec F S896x896 .bf16) (b : Vec F S1x896 .f32) : Vec F S400x896 .f32 :=
  k0_pay7 x0 w0 b
/-- First pair, real part: left half of the real rows' product minus right half of the imaginary rows' product. -/
def res1r (xr xi : Vec F S400x768 .f32) (w1 : Vec F S768x1536 .bf16) : Vec F S400x768 .f32 :=
  k0_pay2 (k0_pay8 xr w1) (k0_pay9 xi w1)
/-- First pair, imaginary part: left half of the imaginary rows' product plus right half of the real rows' product. -/
def res1i (xr xi : Vec F S400x768 .f32) (w1 : Vec F S768x1536 .bf16) : Vec F S400x768 .f32 :=
  k0_pay3 (k0_pay8 xr w1) (k0_pay9 xi w1)
/-- Second pair, real part. -/
def res2r (xr xi : Vec F S400x640 .f32) (w2 : Vec F S640x1280 .bf16) : Vec F S400x640 .f32 :=
  k0_pay4 (k0_pay6 xi) (k0_pay10 xr w2) (k0_pay11 w2)
/-- Second pair, imaginary part. -/
def res2i (xr xi : Vec F S400x640 .f32) (w2 : Vec F S640x1280 .bf16) : Vec F S400x640 .f32 :=
  k0_pay5 (k0_pay6 xi) (k0_pay10 xr w2) (k0_pay11 w2)

/-! ## The region's proof data -/

/-- On core `c`: the arrays as the region finds them; after the body at point `t` each input buffer still at its
    block and each result buffer at the body's result of the input blocks; the invariant is the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res0 (iblk m c 0 t) (iblk m c 5 t) (iblk m c 6 t)
    | ⟨10, _⟩ => res1r (iblk m c 1 t) (iblk m c 2 t) (iblk m c 7 t)
    | ⟨11, _⟩ => res1i (iblk m c 1 t) (iblk m c 2 t) (iblk m c 7 t)
    | ⟨12, _⟩ => res2r (iblk m c 3 t) (iblk m c 4 t) (iblk m c 8 t)
    | ⟨13, _⟩ => res2i (iblk m c 3 t) (iblk m c 4 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = res0 (iblk m c 0 t) (iblk m c 5 t) (iblk m c 6 t) := by dsimp only [dats]
theorem after_10 (c : Dev nD) (t : Fin cfg0.N) :
    (dats m 0 c).after 10 t = res1r (iblk m c 1 t) (iblk m c 2 t) (iblk m c 7 t) := by dsimp only [dats]
theorem after_11 (c : Dev nD) (t : Fin cfg0.N) :
    (dats m 0 c).after 11 t = res1i (iblk m c 1 t) (iblk m c 2 t) (iblk m c 7 t) := by dsimp only [dats]
theorem after_12 (c : Dev nD) (t : Fin cfg0.N) :
    (dats m 0 c).after 12 t = res2r (iblk m c 3 t) (iblk m c 4 t) (iblk m c 8 t) := by dsimp only [dats]
theorem after_13 (c : Dev nD) (t : Fin cfg0.N) :
    (dats m 0 c).after 13 t = res2i (iblk m c 3 t) (iblk m c 4 t) (iblk m c 8 t) := by dsimp only [dats]

end Cert.Kernel.Region

end
-- ==== Proof.RegionRunB.lean ====
/-
  The kernel region runs: at every grid point the body, called on the windows' current buffers with each input
  buffer holding its block, loads the nine blocks, forms the five results and stores each over the whole of its
  result buffer, reading nothing it has not been handed and leaving the inputs as they were. With that, the
  program — host lines, the region over its 150 points, host lines — terminates without a fault from any memory;
  every result array ends at the blocks the body wrote, and the argument arrays, which no host line writes and no
  window stages, end as launched.
-/
import proofs.«134896_j3470333575341_1_alg».proof.Proof.RegionDataB
import Idealize.ShloMosaic.Lib.Pipeline.Value
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the region continued by the six later lines, entered at the contents the fourteen earlier
    lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.reshape_writes, StableHlo.nary_writes, Finset.mem_singleton] <;> exact StableHlo.devRef_ne_of_ne (by decide)

/-! ## Each input buffer holds its block -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body on any whole buffers -/

theorem zero_off2 : (![0, 0] : Fin 2 → Nat) = fun _ => 0 := by funext a; fin_cases a <;> rfl

/-- A store over the whole of a buffer leaves the stored value: its one piece covers every index. -/
theorem whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

set_option maxHeartbeats 4000000 in
/-- The body, its input buffers at `x0 … x4`, `w0`, `b`, `w1`, `w2` and its result buffers at anything, runs to the
    continuation with the inputs as they were and the five results in the result buffers. -/
theorem sound_kernel (c : Dev nD) (E : Set ℕ) (i : grid0.Coords)
    (arg1 : Memref sig .tc .vmem S400x896 .f32) (harg1 : arg1.IsWhole) (arg2 : Memref sig .tc .vmem S400x768 .f32) (harg2 : arg2.IsWhole)
    (arg3 : Memref sig .tc .vmem S400x768 .f32) (harg3 : arg3.IsWhole) (arg4 : Memref sig .tc .vmem S400x640 .f32) (harg4 : arg4.IsWhole)
    (arg5 : Memref sig .tc .vmem S400x640 .f32) (harg5 : arg5.IsWhole) (arg6 : Memref sig .tc .vmem S896x896 .bf16) (harg6 : arg6.IsWhole)
    (arg7 : Memref sig .tc .vmem S1x896 .f32) (harg7 : arg7.IsWhole) (arg8 : Memref sig .tc .vmem S768x1536 .bf16) (harg8 : arg8.IsWhole)
    (arg9 : Memref sig .tc .vmem S640x1280 .bf16) (harg9 : arg9.IsWhole) (arg10 : Memref sig .tc .vmem S400x896 .f32) (harg10 : arg10.IsWhole)
    (arg11 : Memref sig .tc .vmem S400x768 .f32) (harg11 : arg11.IsWhole) (arg12 : Memref sig .tc .vmem S400x768 .f32) (harg12 : arg12.IsWhole)
    (arg13 : Memref sig .tc .vmem S400x640 .f32) (harg13 : arg13.IsWhole) (arg14 : Memref sig .tc .vmem S400x640 .f32) (harg14 : arg14.IsWhole)
    (x0 : Vec F S400x896 .f32) (x1 x2 : Vec F S400x768 .f32) (x3 x4 : Vec F S400x640 .f32)
    (w0 : Vec F S896x896 .bf16) (b : Vec F S1x896 .f32) (w1 : Vec F S768x1536 .bf16) (w2 : Vec F S640x1280 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare w0
        ∗ owns (c : Thread nD τ) arg7 fullShare b ∗ owns (c : Thread nD τ) arg8 fullShare w1 ∗ owns (c : Thread nD τ) arg9 fullShare w2
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare w0
            ∗ owns (c : Thread nD τ) arg7 fullShare b ∗ owns (c : Thread nD τ) arg8 fullShare w1 ∗ owns (c : Thread nD τ) arg9 fullShare w2
            ∗ owns (c : Thread nD τ) arg10 fullShare (res0 x0 w0 b) ∗ owns (c : Thread nD τ) arg11 fullShare (res1r x1 x2 w1)
            ∗ owns (c : Thread nD τ) arg12 fullShare (res1i x1 x2 w1) ∗ owns (c : Thread nD τ) arg13 fullShare (res2r x3 x4 w2)
            ∗ owns (c : Thread nD τ) arg14 fullShare (res2i x3 x4 w2)) -∗ K ⟨⟩))
      ⊢ wp frame (wpE (defs₀ (F := F)) Variants.none c none) E
          (cc0__so2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__so2_kernel_eq_skeleton]; unfold cc0__so2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H10]
  · iexists _; isplitr
    swap; · iexact H10
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H11]
  · iexists _; isplitr
    swap; · iexact H11
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  isplitl [H12]
  · iexists _; isplitr
    swap; · iexact H12
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl
  · iexists _; isplitr
    swap; · iexact H13
    ipureintro
    rw [whole_store _ _ zero_off2]
    sl_unfold_words
    simp only [View.readAt_eq_ld, View.ld_unit_zero (S := S400x896) zero_off2, View.ld_unit_zero (S := S400x768) zero_off2,
      View.ld_unit_zero (S := S400x640) zero_off2, View.ld_unit_zero (S := S896x896) zero_off2, View.ld_unit_zero (S := S1x896) zero_off2,
      View.ld_unit_zero (S := S768x1536) zero_off2, View.ld_unit_zero (S := S640x1280) zero_off2]
    rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the input buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; each
    array of the region ends at what its blocks' write-backs leave, and every other unscoped buffer at what the later
    host lines leave of its contents at the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The arguments end as launched -/

/-- No host line writes argument 0 and no window stages it: it ends as launched. -/
theorem tail_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg0 (by intro w; fin_cases w <;> decide)]
  exact StableHlo.after_of_forall_not_mem (b := Proc.devRef .tc main_arg0) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg0 : main_arg0 ∈ Pipeline.restRefs sig spec0 :=
  Pipeline.mem_restRefs_of main_arg0 rfl (by intro w; fin_cases w <;> decide)

/-- No host line writes argument 1 and no window stages it: it ends as launched. -/
theorem tail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg1 (by intro w; fin_cases w <;> decide)]
  exact StableHlo.after_of_forall_not_mem (b := Proc.devRef .tc main_arg1) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg1 : main_arg1 ∈ Pipeline.restRefs sig spec0 :=
  Pipeline.mem_restRefs_of main_arg1 rfl (by intro w; fin_cases w <;> decide)

/-- No host line writes argument 2 and no window stages it: it ends as launched. -/
theorem tail_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg2 (by intro w; fin_cases w <;> decide)]
  exact StableHlo.after_of_forall_not_mem (b := Proc.devRef .tc main_arg2) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg2 : main_arg2 ∈ Pipeline.restRefs sig spec0 :=
  Pipeline.mem_restRefs_of main_arg2 rfl (by intro w; fin_cases w <;> decide)

/-- No host line writes argument 3 and no window stages it: it ends as launched. -/
theorem tail_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg3 (by intro w; fin_cases w <;> decide)]
  exact StableHlo.after_of_forall_not_mem (b := Proc.devRef .tc main_arg3) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg3 : main_arg3 ∈ Pipeline.restRefs sig spec0 :=
  Pipeline.mem_restRefs_of main_arg3 rfl (by intro w; fin_cases w <;> decide)

/-- No host line writes argument 4 and no window stages it: it ends as launched. -/
theorem tail_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg4 (by intro w; fin_cases w <;> decide)]
  exact StableHlo.after_of_forall_not_mem (b := Proc.devRef .tc main_arg4) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg4 : main_arg4 ∈ Pipeline.restRefs sig spec0 :=
  Pipeline.mem_restRefs_of main_arg4 rfl (by intro w; fin_cases w <;> decide)

/-- No host line writes argument 5 and no window stages it: it ends as launched. -/
theorem tail_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.Forall, StableHlo.reshape_writes,
      StableHlo.nary_writes, Finset.mem_singleton]
    repeat' apply And.intro
    all_goals exact StableHlo.devRef_ne_of_ne (by decide)))]
  rw [Pipeline.withArrays_of_ne spec0 c _ _ main_arg5 (by intro w; fin_cases w <;> decide)]
  exact StableHlo.after_of_forall_not_mem (b := Proc.devRef .tc main_arg5) _ _ (List.forall_iff_forall_mem.mp (by
    simp only [hostOps0, List.flatten_cons, List.flatten_nil, List.append_nil, List.Forall, StableHlo.unary_writes,
      StableHlo.reshape_writes, Finset.mem_singleton]
    repeat' apply And.intro
    all_goals exact StableHlo.devRef_ne_of_ne (by decide)))
theorem rest_arg5 : main_arg5 ∈ Pipeline.restRefs sig spec0 :=
  Pipeline.mem_restRefs_of main_arg5 rfl (by intro w; fin_cases w <;> decide)

theorem rest_v20 : main_v20 ∈ Pipeline.restRefs sig spec0 :=
  Pipeline.mem_restRefs_of main_v20 rfl (by intro w; fin_cases w <;> decide)

/-- The run with the result buffer named and the arguments unchanged. -/
theorem run_named : θ_run defs (onTc (τ := τ) (main (F := F))) ⟨m, fun _ => 0, ρ⟩ (fun r => ∀ c : Dev nD,
      r.2.mem ((c.tc : Thread nD τ).loc main_v20) = Pipeline.afterTail₀ cfgs (dats m) 0 (V0 m) [hostOps1] c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v20 rest_v20,
      ((h c).2 main_arg0 rest_arg0).trans (tail_arg0 m c), ((h c).2 main_arg1 rest_arg1).trans (tail_arg1 m c),
      ((h c).2 main_arg2 rest_arg2).trans (tail_arg2 m c), ((h c).2 main_arg3 rest_arg3).trans (tail_arg3 m c),
      ((h c).2 main_arg4 rest_arg4).trans (tail_arg4 m c), ((h c).2 main_arg5 rest_arg5).trans (tail_arg5 m c)⟩) (run_main m ρ)

/-- The frame: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Region

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.BlockValue.lean ====
/-
  The body's five results at an entry `(p, q)` of the block, at the ideal values: the narrowing of the rows to the
  short float format and the re-laying of a whole block are identities, each matrix unit call into the zero accumulator
  is a plain sum of products over the contracted axis, the bias row is repeated down the rows, and the two halves of a
  product are its columns `q` and `H + q`.
-/
import proofs.«134896_j3470333575341_1_alg».proof.Proof.RegionData
import proofs.«134896_j3470333575341_1_alg».proof.Proof.LibPlainDot
import Idealize.ShloMosaic.Lib.Pipeline.Value
import Idealize.ShloMosaic.Lib.ValueLayout

noncomputable section

namespace Cert.KernelIdeal.BlockValue

open Idealize.ShloMosaic Idealize.ShloMosaic.ValueIdx
open Cert.KernelIdeal Cert.KernelIdeal.Gen Cert.KernelIdeal.Region

/-! ## The three products at an entry

Each of the three dimension records contracts the left operand's second axis against the right operand's first and has
no batch axis, so it is the plain record at its extents, and the product into the zero accumulator at `(p, j)` is the
sum over `k` of `l (p, k) · r (k, j)`. -/

/-- The `400 × 896` by `896 × 896` product at `(p, j)`. -/
private theorem dot896_apply (l : FVec Ideal S400x896 .bf16) (r : FVec Ideal S896x896 .bf16) (p : Fin 400) (j : Fin 896) :
    matmul dot_S400x896_S896x896_S400x896_1_0_0_1_n_n none l r (constant (F := Ideal) S400x896 .f32 0x00000000#32) (ix2 p j)
      = ∑ k : Fin 896, (l (ix2 p k) : EReal) * (r (ix2 k j) : EReal) :=
  PlainDot.matmul_zero_apply 400 896 896 none l r (ix2 p j)

/-- The `400 × 768` by `768 × 1536` product at `(p, j)`. -/
private theorem dot768_apply (l : FVec Ideal S400x768 .bf16) (r : FVec Ideal S768x1536 .bf16) (p : Fin 400) (j : Fin 1536) :
    matmul dot_S400x768_S768x1536_S400x1536_1_0_0_1_n_n none l r (constant (F := Ideal) S400x1536 .f32 0x00000000#32) (ix2 p j)
      = ∑ k : Fin 768, (l (ix2 p k) : EReal) * (r (ix2 k j) : EReal) :=
  PlainDot.matmul_zero_apply 400 768 1536 none l r (ix2 p j)

/-- The `400 × 640` by `640 × 1280` product at `(p, j)`. -/
private theorem dot640_apply (l : FVec Ideal S400x640 .bf16) (r : FVec Ideal S640x1280 .bf16) (p : Fin 400) (j : Fin 1280) :
    matmul dot_S400x640_S640x1280_S400x1280_1_0_0_1_n_n none l r (constant (F := Ideal) S400x1280 .f32 0x00000000#32) (ix2 p j)
      = ∑ k : Fin 640, (l (ix2 p k) : EReal) * (r (ix2 k j) : EReal) :=
  PlainDot.matmul_zero_apply 400 640 1280 none l r (ix2 p j)

/-! ## The products of the narrowed rows

A block re-laid to its own shape is itself and the narrowing is the identity at the ideal values, so each product of the
body is the product of the block with the weights as they are. -/

/-- Rows of the first pair (either half) against the first pair's weights, at `(p, j)`. -/
private theorem prod768_apply (x : FVec Ideal S400x768 .f32) (w : FVec Ideal S768x1536 .bf16)
    (h1 : S400x768.ShapeCasts S400x768) (h2 : S768x1536.ShapeCasts S768x1536) (hb : FTy.bits .bf16 < FTy.bits .f32)
    (p : Fin 400) (j : Fin 1536) :
    matmul dot_S400x768_S768x1536_S400x1536_1_0_0_1_n_n none (truncf (F := Ideal) .bf16 (shapeCast S400x768 x h1) hb)
        (shapeCast S768x1536 w h2) (constant (F := Ideal) S400x1536 .f32 0x00000000#32) (ix2 p j)
      = ∑ k : Fin 768, (x (ix2 p k) : EReal) * (w (ix2 k j) : EReal) := by
  rw [shapeCast_self, shapeCast_self]
  exact dot768_apply _ _ p j

/-- Rows of the second pair (either half) against the second pair's weights, at `(p, j)`. -/
private theorem prod640_apply (x : FVec Ideal S400x640 .f32) (w : FVec Ideal S640x1280 .bf16)
    (h1 : S400x640.ShapeCasts S400x640) (h2 : S640x1280.ShapeCasts S640x1280) (hb : FTy.bits .bf16 < FTy.bits .f32)
    (p : Fin 400) (j : Fin 1280) :
    matmul dot_S400x640_S640x1280_S400x1280_1_0_0_1_n_n none (truncf (F := Ideal) .bf16 (shapeCast S400x640 x h1) hb)
        (shapeCast S640x1280 w h2) (constant (F := Ideal) S400x1280 .f32 0x00000000#32) (ix2 p j)
      = ∑ k : Fin 640, (x (ix2 p k) : EReal) * (w (ix2 k j) : EReal) := by
  rw [shapeCast_self, shapeCast_self]
  exact dot640_apply _ _ p j

/-- The real rows' product of the first pair. -/
private theorem pay8_apply (x : Vec Ideal S400x768 .f32) (w : Vec Ideal S768x1536 .bf16) (p : Fin 400) (j : Fin 1536) :
    k0_pay8 (F := Ideal) x w (ix2 p j) = ∑ k : Fin 768, (x (ix2 p k) : EReal) * (w (ix2 k j) : EReal) := by
  unfold k0_pay8
  exact prod768_apply x w _ _ _ p j

/-- The imaginary rows' product of the first pair. -/
private theorem pay9_apply (x : Vec Ideal S400x768 .f32) (w : Vec Ideal S768x1536 .bf16) (p : Fin 400) (j : Fin 1536) :
    k0_pay9 (F := Ideal) x w (ix2 p j) = ∑ k : Fin 768, (x (ix2 p k) : EReal) * (w (ix2 k j) : EReal) := by
  unfold k0_pay9
  exact prod768_apply x w _ _ _ p j

/-- The real rows' product of the second pair. -/
private theorem pay10_apply (x : Vec Ideal S400x640 .f32) (w : Vec Ideal S640x1280 .bf16) (p : Fin 400) (j : Fin 1280) :
    k0_pay10 (F := Ideal) x w (ix2 p j) = ∑ k : Fin 640, (x (ix2 p k) : EReal) * (w (ix2 k j) : EReal) := by
  unfold k0_pay10
  exact prod640_apply x w _ _ _ p j

/-- The imaginary rows' product of the second pair: the rows are narrowed where they are read and the weights re-laid
    where they are read, the product taken where it is used. -/
private theorem pay1_apply (x : Vec Ideal S400x640 .f32) (w : Vec Ideal S640x1280 .bf16) (p : Fin 400) (j : Fin 1280) :
    k0_pay1 (F := Ideal) (k0_pay6 x) (k0_pay11 w) (ix2 p j) = ∑ k : Fin 640, (x (ix2 p k) : EReal) * (w (ix2 k j) : EReal) := by
  unfold k0_pay1 k0_pay6 k0_pay11
  exact prod640_apply x w _ _ _ p j

/-- First group: row `p` of the block against column `q` of the weights, plus the bias at `q`. -/
theorem res0_apply (x0 : Vec Ideal S400x896 .f32) (w0 : Vec Ideal S896x896 .bf16) (b : Vec Ideal S1x896 .f32)
    (p : Fin 400) (q : Fin 896) :
    res0 (F := Ideal) x0 w0 b (ix2 p q)
      = (∑ k : Fin 896, (x0 (ix2 p k) : EReal) * (w0 (ix2 k q) : EReal)) + (b (ix2 (0 : Fin 1) q) : EReal) := by
  unfold res0 k0_pay7
  refine (addf_apply _ _ _).trans ?_
  refine congrArg₂ (· + ·) ?_ ?_
  · rw [shapeCast_self, shapeCast_self]
    exact dot896_apply _ _ p q
  · rw [shapeCast_self]
    exact broadcastTo_1b_ab_apply _ _ p q

/-- First pair, real part. -/
theorem res1r_apply (xr xi : Vec Ideal S400x768 .f32) (w1 : Vec Ideal S768x1536 .bf16) (p : Fin 400) (q : Fin 768) :
    res1r (F := Ideal) xr xi w1 (ix2 p q)
      = (∑ k : Fin 768, (xr (ix2 p k) : EReal) * (w1 (ix2 k (⟨q.val, by omega⟩ : Fin 1536)) : EReal))
        - (∑ k : Fin 768, (xi (ix2 p k) : EReal) * (w1 (ix2 k (⟨768 + q.val, by omega⟩ : Fin 1536)) : EReal)) := by
  unfold res1r k0_pay2
  refine (subf_apply _ _ _).trans ?_
  refine congrArg₂ (· - ·) ?_ ?_
  · refine (slice2_axis1_apply 0 _ _ p q (⟨q.val, by omega⟩ : Fin 1536) (Nat.zero_add _).symm).trans ?_
    exact pay8_apply xr w1 p _
  · refine (slice2_axis1_apply 768 _ _ p q (⟨768 + q.val, by omega⟩ : Fin 1536) rfl).trans ?_
    exact pay9_apply xi w1 p _

/-- First pair, imaginary part. -/
theorem res1i_apply (xr xi : Vec Ideal S400x768 .f32) (w1 : Vec Ideal S768x1536 .bf16) (p : Fin 400) (q : Fin 768) :
    res1i (F := Ideal) xr xi w1 (ix2 p q)
      = (∑ k : Fin 768, (xi (ix2 p k) : EReal) * (w1 (ix2 k (⟨q.val, by omega⟩ : Fin 1536)) : EReal))
        + (∑ k : Fin 768, (xr (ix2 p k) : EReal) * (w1 (ix2 k (⟨768 + q.val, by omega⟩ : Fin 1536)) : EReal)) := by
  unfold res1i k0_pay3
  refine (addf_apply _ _ _).trans ?_
  refine congrArg₂ (· + ·) ?_ ?_
  · refine (slice2_axis1_apply 0 _ _ p q (⟨q.val, by omega⟩ : Fin 1536) (Nat.zero_add _).symm).trans ?_
    exact pay9_apply xi w1 p _
  · refine (slice2_axis1_apply 768 _ _ p q (⟨768 + q.val, by omega⟩ : Fin 1536) rfl).trans ?_
    exact pay8_apply xr w1 p _

/-- Second pair, real part. -/
theorem res2r_apply (xr xi : Vec Ideal S400x640 .f32) (w2 : Vec Ideal S640x1280 .bf16) (p : Fin 400) (q : Fin 640) :
    res2r (F := Ideal) xr xi w2 (ix2 p q)
      = (∑ k : Fin 640, (xr (ix2 p k) : EReal) * (w2 (ix2 k (⟨q.val, by omega⟩ : Fin 1280)) : EReal))
        - (∑ k : Fin 640, (xi (ix2 p k) : EReal) * (w2 (ix2 k (⟨640 + q.val, by omega⟩ : Fin 1280)) : EReal)) := by
  unfold res2r k0_pay4
  refine (subf_apply _ _ _).trans ?_
  refine congrArg₂ (· - ·) ?_ ?_
  · refine (slice2_axis1_apply 0 _ _ p q (⟨q.val, by omega⟩ : Fin 1280) (Nat.zero_add _).symm).trans ?_
    exact pay10_apply xr w2 p _
  · refine (slice2_axis1_apply 640 _ _ p q (⟨640 + q.val, by omega⟩ : Fin 1280) rfl).trans ?_
    exact pay1_apply xi w2 p _

/-- Second pair, imaginary part. -/
theorem res2i_apply (xr xi : Vec Ideal S400x640 .f32) (w2 : Vec Ideal S640x1280 .bf16) (p : Fin 400) (q : Fin 640) :
    res2i (F := Ideal) xr xi w2 (ix2 p q)
      = (∑ k : Fin 640, (xi (ix2 p k) : EReal) * (w2 (ix2 k (⟨q.val, by omega⟩ : Fin 1280)) : EReal))
        + (∑ k : Fin 640, (xr (ix2 p k) : EReal) * (w2 (ix2 k (⟨640 + q.val, by omega⟩ : Fin 1280)) : EReal)) := by
  unfold res2i k0_pay5
  refine (addf_apply _ _ _).trans ?_
  refine congrArg₂ (· + ·) ?_ ?_
  · refine (slice2_axis1_apply 0 _ _ p q (⟨q.val, by omega⟩ : Fin 1280) (Nat.zero_add _).symm).trans ?_
    exact pay1_apply xi w2 p _
  · refine (slice2_axis1_apply 640 _ _ p q (⟨640 + q.val, by omega⟩ : Fin 1280) rfl).trans ?_
    exact pay10_apply xr w2 p _

end Cert.KernelIdeal.BlockValue

end
-- ==== Proof.Spec.lean ====
/-
  What both programs compute, as functions of the argument arrays over the extended reals.

  The features `x` have 29 rows of 128 lanes per edge. Rows 0–6 are one group; rows 7–12 and 13–18 are the real
  and imaginary halves of a first complex pair, rows 19–23 and 24–28 those of a second. A run of rows from row
  `r0` is read as one flat vector: entry `k` is row `r0 + k / 128`, lane `k % 128`. The first group's result is its
  flat vector times `w0` plus the bias. For a pair with half-width `H` and weights `w` of `2 H` columns, write
  `P = re · w` and `Q = im · w`: the real result is `P[:, j] − Q[:, H + j]` and the imaginary one
  `Q[:, j] + P[:, H + j]`. The five results, each re-laid as rows of 128 lanes, are stacked along the row axis.
-/
import Idealize.ShloMosaic.PureOps.Ideal
import Idealize.ShloMosaic.Lib.ValueIdx

noncomputable section

namespace Cert.Spec

open Idealize.ShloMosaic Idealize.ShloMosaic.ValueIdx

abbrev Feat := FVec Ideal ⟨3, ![60000, 29, 128]⟩ .f32

/-- Entry `k` of edge `e`'s rows from row `r0` on, flattened: row `r0 + k / 128`, lane `k % 128`. -/
def flat (x : Feat) (r0 K : Nat) (h : r0 * 128 + K ≤ 29 * 128) (e : Fin 60000) (k : Fin K) : EReal :=
  x (ix3 e (⟨r0 + k.val / 128, by have := k.isLt; omega⟩ : Fin 29) (⟨k.val % 128, Nat.mod_lt _ (by norm_num)⟩ : Fin 128))

/-- Edge `e`'s flattened rows from `r0` against column `j` of `w`. -/
def dotRow (x : Feat) (r0 K N : Nat) (h : r0 * 128 + K ≤ 29 * 128) (w : FVec Ideal ⟨2, ![K, N]⟩ .f32)
    (e : Fin 60000) (j : Fin N) : EReal :=
  ∑ k : Fin K, flat x r0 K h e k * w (ix2 k j)

/-- The first group: its 896 flattened entries times `w0`, plus the bias. -/
def group0 (x : Feat) (w0 : FVec Ideal ⟨2, ![896, 896]⟩ .f32) (b : FVec Ideal ⟨1, ![896]⟩ .f32) :
    FVec Ideal ⟨2, ![60000, 896]⟩ .f32 :=
  fun i => dotRow x 0 896 896 (by norm_num) w0 (i 0) (i 1) + b (ix1 (i 1))

/-- First pair (half-width 768, rows 7–12 real, 13–18 imaginary), real result. -/
def pair1Re (x : Feat) (w1 : FVec Ideal ⟨2, ![768, 1536]⟩ .f32) : FVec Ideal ⟨2, ![60000, 768]⟩ .f32 :=
  fun i => dotRow x 7 768 1536 (by norm_num) w1 (i 0) ⟨(i 1).val, by have := idx2_lt1 i; omega⟩
    - dotRow x 13 768 1536 (by norm_num) w1 (i 0) ⟨768 + (i 1).val, by have := idx2_lt1 i; omega⟩

/-- First pair, imaginary result. -/
def pair1Im (x : Feat) (w1 : FVec Ideal ⟨2, ![768, 1536]⟩ .f32) : FVec Ideal ⟨2, ![60000, 768]⟩ .f32 :=
  fun i => dotRow x 13 768 1536 (by norm_num) w1 (i 0) ⟨(i 1).val, by have := idx2_lt1 i; omega⟩
    + dotRow x 7 768 1536 (by norm_num) w1 (i 0) ⟨768 + (i 1).val, by have := idx2_lt1 i; omega⟩

/-- Second pair (half-width 640, rows 19–23 real, 24–28 imaginary), real result. -/
def pair2Re (x : Feat) (w2 : FVec Ideal ⟨2, ![640, 1280]⟩ .f32) : FVec Ideal ⟨2, ![60000, 640]⟩ .f32 :=
  fun i => dotRow x 19 640 1280 (by norm_num) w2 (i 0) ⟨(i 1).val, by have := idx2_lt1 i; omega⟩
    - dotRow x 24 640 1280 (by norm_num) w2 (i 0) ⟨640 + (i 1).val, by have := idx2_lt1 i; omega⟩

/-- Second pair, imaginary result. -/
def pair2Im (x : Feat) (w2 : FVec Ideal ⟨2, ![640, 1280]⟩ .f32) : FVec Ideal ⟨2, ![60000, 640]⟩ .f32 :=
  fun i => dotRow x 24 640 1280 (by norm_num) w2 (i 0) ⟨(i 1).val, by have := idx2_lt1 i; omega⟩
    + dotRow x 19 640 1280 (by norm_num) w2 (i 0) ⟨640 + (i 1).val, by have := idx2_lt1 i; omega⟩

theorem stack_ok : Shape.Concatenates [⟨3, ![60000, 7, 128]⟩, ⟨3, ![60000, 6, 128]⟩, ⟨3, ![60000, 6, 128]⟩,
    ⟨3, ![60000, 5, 128]⟩, ⟨3, ![60000, 5, 128]⟩] ⟨3, ![60000, 29, 128]⟩ 1 := by decide
theorem rows7_ok : (⟨2, ![60000, 896]⟩ : Shape).ShapeCasts ⟨3, ![60000, 7, 128]⟩ := by decide
theorem rows6_ok : (⟨2, ![60000, 768]⟩ : Shape).ShapeCasts ⟨3, ![60000, 6, 128]⟩ := by decide
theorem rows5_ok : (⟨2, ![60000, 640]⟩ : Shape).ShapeCasts ⟨3, ![60000, 5, 128]⟩ := by decide

/-- The five results re-laid as rows of 128 lanes and stacked along the row axis: 7 + 6 + 6 + 5 + 5 = 29 rows. -/
def assemble (a0 : FVec Ideal ⟨2, ![60000, 896]⟩ .f32) (a1 a2 : FVec Ideal ⟨2, ![60000, 768]⟩ .f32)
    (a3 a4 : FVec Ideal ⟨2, ![60000, 640]⟩ .f32) : Feat :=
  concatenate ⟨3, ![60000, 29, 128]⟩ 1
    [⟨⟨3, ![60000, 7, 128]⟩, shapeCast ⟨3, ![60000, 7, 128]⟩ a0 rows7_ok⟩,
     ⟨⟨3, ![60000, 6, 128]⟩, shapeCast ⟨3, ![60000, 6, 128]⟩ a1 rows6_ok⟩,
     ⟨⟨3, ![60000, 6, 128]⟩, shapeCast ⟨3, ![60000, 6, 128]⟩ a2 rows6_ok⟩,
     ⟨⟨3, ![60000, 5, 128]⟩, shapeCast ⟨3, ![60000, 5, 128]⟩ a3 rows5_ok⟩,
     ⟨⟨3, ![60000, 5, 128]⟩, shapeCast ⟨3, ![60000, 5, 128]⟩ a4 rows5_ok⟩] stack_ok

/-- The whole result. -/
def result (x : Feat) (w0 : FVec Ideal ⟨2, ![896, 896]⟩ .f32) (b : FVec Ideal ⟨1, ![896]⟩ .f32)
    (w1 : FVec Ideal ⟨2, ![768, 1536]⟩ .f32) (w2 : FVec Ideal ⟨2, ![640, 1280]⟩ .f32) : Feat :=
  assemble (group0 x w0 b) (pair1Re x w1) (pair1Im x w1) (pair2Re x w2) (pair2Im x w2)

end Cert.Spec

end
-- ==== Proof.ArrayValue.lean ====
/-
  The five result arrays after the region, and the program's result after the host lines that follow it, at the
  ideal values. Block `t` of a result array holds rows `400 t … 400 t + 399`; the body fills it from the same rows
  of the feature arrays — which the host lines before the region cut out of `x` and flatten — and from the whole
  weight arrays, so entry `(e, j)` of a result array is the specification's entry. The blocks of the 150 grid points
  cover the 60000 rows. The host lines after the region re-lay the five arrays as rows of 128 lanes and stack them.
-/
import proofs.«134896_j3470333575341_1_alg».proof.Proof.RegionData
import proofs.«134896_j3470333575341_1_alg».proof.Proof.BlockValue
import proofs.«134896_j3470333575341_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region

variable (m : (ℓ : Loc nD τ sig) → Buf (Elt Ideal) ℓ)

/-! ## The arrays the region finds, read at an index

The host lines before the region cut rows out of the features and flatten them, narrow the weights (an identity at
the ideal values) and re-lay the bias as one row. -/

/-- The first group's rows as the region finds them: rows 0–6 of the features cut out and flattened, 896 entries per edge. -/
theorem V_main_v1 (c : Dev nD) :
    (V m c main_v1 : S60000x896.Idx → EReal)
      = shapeCast S60000x896 (extractStridedSlice S60000x7x128 ![0, 0, 0] (m ((c.tc : Thread nD τ).loc main_arg0)) slices_S60000x29x128_S60000x7x128_0_0_0) shapeCasts_S60000x7x128_S60000x896 := by
  show StableHlo.after hostOps0 (fun b => m (c, b)) (Proc.devRef .tc main_v1) = _
  after_results
  rfl

/-- The first group's weights narrowed to the short float format: the same values. -/
theorem V_main_v10 (c : Dev nD) :
    (V m c main_v10 : S896x896.Idx → EReal) = (m ((c.tc : Thread nD τ).loc main_arg2) : S896x896.Idx → EReal) := by
  show StableHlo.after hostOps0 (fun b => m (c, b)) (Proc.devRef .tc main_v10) = _
  after_results
  rfl

/-- The bias re-laid as one row of 896 lanes. -/
theorem V_main_v13 (c : Dev nD) :
    (V m c main_v13 : S1x896.Idx → EReal)
      = shapeCast S1x896 (m ((c.tc : Thread nD τ).loc main_arg3)) shapeCasts_S896_S1x896 := by
  show StableHlo.after hostOps0 (fun b => m (c, b)) (Proc.devRef .tc main_v13) = _
  after_results
  rfl

/-- Entry (e, k) of the first group's flattened rows is the feature at row k / 128, lane k % 128 of edge e. -/
theorem x0_apply (c : Dev nD) (e : Fin 60000) (k : Fin 896) :
    (V m c main_v1 : S60000x896.Idx → EReal) (ix2 e k)
      = Cert.Spec.flat (m ((c.tc : Thread nD τ).loc main_arg0)) 0 896 (by norm_num) e k := by
  rw [V_main_v1]
  have hk := k.isLt
  refine (shapeCast_apply _ _ (ix2 e k) (ix3 e (⟨k.val / 128, by omega⟩ : Fin 7) (⟨k.val % 128, Nat.mod_lt _ (by norm_num)⟩ : Fin 128)) ?_).trans ?_
  · rw [Shape.rowMajor_val_two, Shape.rowMajor_val_three]
    show (e.val * 7 + k.val / 128) * 128 + k.val % 128 = e.val * 896 + k.val
    omega
  · refine (extractStridedSlice_apply _ _ _ _ (ix3 e (⟨0 + k.val / 128, by omega⟩ : Fin 29) (⟨k.val % 128, Nat.mod_lt _ (by norm_num)⟩ : Fin 128)) ?_).trans ?_
    · intro a
      match a with
      | ⟨0, _⟩ => show e.val = 0 + e.val; omega
      | ⟨1, _⟩ => show 0 + k.val / 128 = 0 + k.val / 128; rfl
      | ⟨2, _⟩ => show k.val % 128 = 0 + k.val % 128; omega
    · rfl

/-- The bias row at lane q is the bias at q. -/
theorem b_apply (c : Dev nD) (q : Fin 896) :
    (V m c main_v13 : S1x896.Idx → EReal) (ix2 (0 : Fin 1) q)
      = (m ((c.tc : Thread nD τ).loc main_arg3) : S896.Idx → EReal) (ix1 q) := by
  rw [V_main_v13]
  refine shapeCast_apply _ _ (ix2 (0 : Fin 1) q) (ix1 q) ?_
  rw [Shape.rowMajor_val_one, Shape.rowMajor_val_two]
  show q.val = 0 * 896 + q.val
  omega

/-! ## The blocks at a grid point

Point t's block of a feature or result array is its rows 400 t … 400 t + 399, all columns; the weight and bias
windows hold their whole arrays at every point. -/

/-- The block indices over the grid: the feature and result windows move with the point along the rows, the weight and bias
    windows stay at block (0, 0). -/
theorem idx_facts9 : ∀ t : Fin cfg0.N,
    win0_0.index t (0 : Fin 2) = t.val ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-- Entry (p, k) of point t's block of the first group's rows is entry (400 t + p, k) of the array. -/
theorem x0blk_apply (c : Dev nD) (t : Fin cfg0.N) (p : Fin 400) (k : Fin 896) (e : Fin 60000)
    (he : e.val = 400 * t.val + p.val) :
    (iblk m c 0 t : Vec Ideal S400x896 .f32) (ix2 p k) = (V m c main_v1 : S60000x896.Idx → EReal) (ix2 e k) := by
  obtain ⟨e0, e1, -⟩ := idx_facts9 t
  unfold iblk
  rw [View.read_apply]
  show V m c main_v1 _ = V m c main_v1 _
  congr 1
  funext a
  apply Fin.ext
  match a with
  | ⟨0, _⟩ => show win0_0.index t (0 : Fin 2) * 400 + 1 * p.val = e.val; rw [e0, he]; omega
  | ⟨1, _⟩ => show win0_0.index t (1 : Fin 2) * 896 + 1 * k.val = k.val; rw [e1]; omega

/-- Point t's block of the first group's weights is the whole array. -/
theorem w0blk_apply (c : Dev nD) (t : Fin cfg0.N) (k q : Fin 896) :
    (iblk m c 5 t : Vec Ideal S896x896 .bf16) (ix2 k q) = (V m c main_v10 : S896x896.Idx → EReal) (ix2 k q) := by
  obtain ⟨-, -, e0, e1, -⟩ := idx_facts9 t
  unfold iblk
  rw [View.read_apply]
  show V m c main_v10 _ = V m c main_v10 _
  congr 1
  funext a
  apply Fin.ext
  match a with
  | ⟨0, _⟩ => show win0_5.index t (0 : Fin 2) * 896 + 1 * k.val = k.val; rw [e0]; omega
  | ⟨1, _⟩ => show win0_5.index t (1 : Fin 2) * 896 + 1 * q.val = q.val; rw [e1]; omega

/-- Point t's block of the bias row is the whole row. -/
theorem bblk_apply (c : Dev nD) (t : Fin cfg0.N) (q : Fin 896) :
    (iblk m c 6 t : Vec Ideal S1x896 .f32) (ix2 (0 : Fin 1) q) = (V m c main_v13 : S1x896.Idx → EReal) (ix2 (0 : Fin 1) q) := by
  obtain ⟨-, -, -, -, e0, e1, -⟩ := idx_facts9 t
  unfold iblk
  rw [View.read_apply]
  show V m c main_v13 _ = V m c main_v13 _
  congr 1
  funext a
  apply Fin.ext
  match a with
  | ⟨0, _⟩ => show win0_6.index t (0 : Fin 2) * 1 + 1 * 0 = 0; rw [e0]
  | ⟨1, _⟩ => show win0_6.index t (1 : Fin 2) * 896 + 1 * q.val = q.val; rw [e1]; omega

/-! ## The first group's result array -/

/-- What point t writes back to the first result array is block t of the specification's array. -/
theorem flushed9_eq (c : Dev nD) (t : Fin cfg0.N) :
    (dats m 0 c).flushed 9 t = ((cfg0.win 9).blk t).view.read (Elt Ideal)
      (Cert.Spec.group0 (m ((c.tc : Thread nD τ).loc main_arg0)) (m ((c.tc : Thread nD τ).loc main_arg2))
        (m ((c.tc : Thread nD τ).loc main_arg3))) := by
  show (cfg0.win 9).cut (grid0.coords t) ((dats m 0 c).after 9 t) = _
  rw [after_9]
  funext y
  obtain ⟨p, q, rfl⟩ : ∃ (p : Fin 400) (q : Fin 896), y = ix2 p q := ⟨y 0, y 1, eq_ix2 y⟩
  obtain ⟨-, -, -, -, -, -, e0, e1⟩ := idx_facts9 t
  have hN : cfg0.N = 150 := N_0
  have ht := t.isLt
  have hp := p.isLt
  have hxinj : (cfg0.win 9).xinj (grid0.coords t) (ix2 p q) = ix2 p q :=
    funext fun a => by match a with | ⟨0, _⟩ => rfl | ⟨1, _⟩ => rfl
  have hemb : ((cfg0.win 9).blk t).view.emb (ix2 p q) = ix2 (⟨400 * t.val + p.val, by omega⟩ : Fin 60000) q := by
    funext a
    apply Fin.ext
    match a with
    | ⟨0, _⟩ => show win0_9.index t (0 : Fin 2) * 400 + 1 * p.val = 400 * t.val + p.val; rw [e0]; omega
    | ⟨1, _⟩ => show win0_9.index t (1 : Fin 2) * 896 + 1 * q.val = q.val; rw [e1]; omega
  rw [View.read_apply]
  show res0 (iblk m c 0 t) (iblk m c 5 t) (iblk m c 6 t) ((cfg0.win 9).xinj (grid0.coords t) (ix2 p q))
    = Cert.Spec.group0 (m ((c.tc : Thread nD τ).loc main_arg0)) (m ((c.tc : Thread nD τ).loc main_arg2))
        (m ((c.tc : Thread nD τ).loc main_arg3)) (((cfg0.win 9).blk t).view.emb (ix2 p q))
  rw [hxinj, hemb]
  refine (BlockValue.res0_apply (iblk m c 0 t) (iblk m c 5 t) (iblk m c 6 t) p q).trans ?_
  unfold Cert.Spec.group0 Cert.Spec.dotRow
  congr 1
  · refine Finset.sum_congr rfl fun k _ => ?_
    congr 1
    · exact (x0blk_apply m c t p k _ rfl).trans (x0_apply m c _ k)
    · exact (w0blk_apply m c t k q).trans (congrFun (V_main_v10 m c) (ix2 k q))
  · exact (bblk_apply m c t q).trans (b_apply m c q)

/-- Row e of the result array lies in the block of point e / 400. -/
theorem cover9 (i : S60000x896.Idx) :
    ∃ t : Fin cfg0.N, (cfg0.win 9).flush t = true ∧ i ∈ ((cfg0.win 9).blk t).view.set := by
  have hN : cfg0.N = 150 := N_0
  have hi0 : (i 0).val < 60000 := (i 0).isLt
  have hi1 : (i 1).val < 896 := (i 1).isLt
  obtain ⟨t, ht⟩ : ∃ t : Fin cfg0.N, t.val = (i 0).val / 400 := ⟨⟨(i 0).val / 400, by omega⟩, rfl⟩
  refine ⟨t, flush0_9 t, ?_⟩
  obtain ⟨-, -, -, -, -, -, e0, e1⟩ := idx_facts9 t
  show i ∈ ((View.whole main_v14_0).slice (win0_9.rect t)).set
  rw [View.set_slice_whole, Rect.mem_set_unit]
  intro a
  match a with
  | ⟨0, _⟩ =>
    show win0_9.index t (0 : Fin 2) * 400 ≤ (i 0).val ∧ (i 0).val < win0_9.index t (0 : Fin 2) * 400 + 400
    rw [e0, ht]
    omega
  | ⟨1, _⟩ =>
    show win0_9.index t (1 : Fin 2) * 896 ≤ (i 1).val ∧ (i 1).val < win0_9.index t (1 : Fin 2) * 896 + 896
    rw [e1]
    omega

/-- The first group's result array. -/
theorem final9 (c : Dev nD) :
    (dats m 0 c).arrAt 9 cfg0.N
      = Cert.Spec.group0 (m ((c.tc : Thread nD τ).loc main_arg0)) (m ((c.tc : Thread nD τ).loc main_arg2))
          (m ((c.tc : Thread nD τ).loc main_arg3)) :=
  (dats m 0 c).arrAt_eq_of_cover 9 _ (fun t _ => flushed9_eq m c t) cover9

/-! ## The first pair's arrays and blocks -/

/-- The pair's real rows as the region finds them: rows 7–12 of the features cut out and flattened, 768 entries per edge. -/
theorem V_main_v3 (c : Dev nD) :
    (V m c main_v3 : S60000x768.Idx → EReal)
      = shapeCast S60000x768 (extractStridedSlice S60000x6x128 ![0, 7, 0] (m ((c.tc : Thread nD τ).loc main_arg0)) slices_S60000x29x128_S60000x6x128_0_7_0) shapeCasts_S60000x6x128_S60000x768 := by
  show StableHlo.after hostOps0 (fun b => m (c, b)) (Proc.devRef .tc main_v3) = _
  after_results
  rfl

/-- The pair's imaginary rows as the region finds them: rows 13–18 of the features cut out and flattened. -/
theorem V_main_v5 (c : Dev nD) :
    (V m c main_v5 : S60000x768.Idx → EReal)
      = shapeCast S60000x768 (extractStridedSlice S60000x6x128 ![0, 13, 0] (m ((c.tc : Thread nD τ).loc main_arg0)) slices_S60000x29x128_S60000x6x128_0_13_0) shapeCasts_S60000x6x128_S60000x768 := by
  show StableHlo.after hostOps0 (fun b => m (c, b)) (Proc.devRef .tc main_v5) = _
  after_results
  rfl

/-- The pair's weights narrowed to the short float format: the same values. -/
theorem V_main_v11 (c : Dev nD) :
    (V m c main_v11 : S768x1536.Idx → EReal) = (m ((c.tc : Thread nD τ).loc main_arg4) : S768x1536.Idx → EReal) := by
  show StableHlo.after hostOps0 (fun b => m (c, b)) (Proc.devRef .tc main_v11) = _
  after_results
  rfl

/-- Entry (e, k) of the real half's flattened rows is the feature at row 7 + k / 128, lane k % 128 of edge e. -/
theorem x1r_apply (c : Dev nD) (e : Fin 60000) (k : Fin 768) :
    (V m c main_v3 : S60000x768.Idx → EReal) (ix2 e k)
      = Cert.Spec.flat (m ((c.tc : Thread nD τ).loc main_arg0)) 7 768 (by norm_num) e k := by
  rw [V_main_v3]
  have hk := k.isLt
  refine (shapeCast_apply _ _ (ix2 e k) (ix3 e (⟨k.val / 128, by omega⟩ : Fin 6) (⟨k.val % 128, Nat.mod_lt _ (by norm_num)⟩ : Fin 128)) ?_).trans ?_
  · rw [Shape.rowMajor_val_two, Shape.rowMajor_val_three]
    show (e.val * 6 + k.val / 128) * 128 + k.val % 128 = e.val * 768 + k.val
    omega
  · refine (extractStridedSlice_apply _ _ _ _ (ix3 e (⟨7 + k.val / 128, by omega⟩ : Fin 29) (⟨k.val % 128, Nat.mod_lt _ (by norm_num)⟩ : Fin 128)) ?_).trans ?_
    · intro a
      match a with
      | ⟨0, _⟩ => show e.val = 0 + e.val; omega
      | ⟨1, _⟩ => show 7 + k.val / 128 = 7 + k.val / 128; rfl
      | ⟨2, _⟩ => show k.val % 128 = 0 + k.val % 128; omega
    · rfl

/-- Entry (e, k) of the imaginary half's flattened rows is the feature at row 13 + k / 128, lane k % 128 of edge e. -/
theorem x1i_apply (c : Dev nD) (e : Fin 60000) (k : Fin 768) :
    (V m c main_v5 : S60000x768.Idx → EReal) (ix2 e k)
      = Cert.Spec.flat (m ((c.tc : Thread nD τ).loc main_arg0)) 13 768 (by norm_num) e k := by
  rw [V_main_v5]
  have hk := k.isLt
  refine (shapeCast_apply _ _ (ix2 e k) (ix3 e (⟨k.val / 128, by omega⟩ : Fin 6) (⟨k.val % 128, Nat.mod_lt _ (by norm_num)⟩ : Fin 128)) ?_).trans ?_
  · rw [Shape.rowMajor_val_two, Shape.rowMajor_val_three]
    show (e.val * 6 + k.val / 128) * 128 + k.val % 128 = e.val * 768 + k.val
    omega
  · refine (extractStridedSlice_apply _ _ _ _ (ix3 e (⟨13 + k.val / 128, by omega⟩ : Fin 29) (⟨k.val % 128, Nat.mod_lt _ (by norm_num)⟩ : Fin 128)) ?_).trans ?_
    · intro a
      match a with
      | ⟨0, _⟩ => show e.val = 0 + e.val; omega
      | ⟨1, _⟩ => show 13 + k.val / 128 = 13 + k.val / 128; rfl
      | ⟨2, _⟩ => show k.val % 128 = 0 + k.val % 128; omega
    · rfl

/-- The block indices over the grid for the pair's windows: rows and results move with the point, the weights stay at block (0, 0). -/
theorem idx_facts1 : ∀ t : Fin cfg0.N,
    win0_1.index t (0 : Fin 2) = t.val ∧ win0_1.index t (1 : Fin 2) = 0
    ∧ win0_2.index t (0 : Fin 2) = t.val ∧ win0_2.index t (1 : Fin 2) = 0
    ∧ win0_7.index t (0 : Fin 2) = 0 ∧ win0_7.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Entry (p, k) of point t's block of the pair's real rows is entry (400 t + p, k) of the array. -/
theorem x1rblk_apply (c : Dev nD) (t : Fin cfg0.N) (p : Fin 400) (k : Fin 768) (e : Fin 60000)
    (he : e.val = 400 * t.val + p.val) :
    (iblk m c 1 t : Vec Ideal S400x768 .f32) (ix2 p k) = (V m c main_v3 : S60000x768.Idx → EReal) (ix2 e k) := by
  obtain ⟨e0, e1, -⟩ := idx_facts1 t
  unfold iblk
  rw [View.read_apply]
  show V m c main_v3 _ = V m c main_v3 _
  congr 1
  funext a
  apply Fin.ext
  match a with
  | ⟨0, _⟩ => show win0_1.index t (0 : Fin 2) * 400 + 1 * p.val = e.val; rw [e0, he]; omega
  | ⟨1, _⟩ => show win0_1.index t (1 : Fin 2) * 768 + 1 * k.val = k.val; rw [e1]; omega

/-- Entry (p, k) of point t's block of the pair's imaginary rows is entry (400 t + p, k) of the array. -/
theorem x1iblk_apply (c : Dev nD) (t : Fin cfg0.N) (p : Fin 400) (k : Fin 768) (e : Fin 60000)
    (he : e.val = 400 * t.val + p.val) :
    (iblk m c 2 t : Vec Ideal S400x768 .f32) (ix2 p k) = (V m c main_v5 : S60000x768.Idx → EReal) (ix2 e k) := by
  obtain ⟨-, -, e0, e1, -⟩ := idx_facts1 t
  unfold iblk
  rw [View.read_apply]
  show V m c main_v5 _ = V m c main_v5 _
  congr 1
  funext a
  apply Fin.ext
  match a with
  | ⟨0, _⟩ => show win0_2.index t (0 : Fin 2) * 400 + 1 * p.val = e.val; rw [e0, he]; omega
  | ⟨1, _⟩ => show win0_2.index t (1 : Fin 2) * 768 + 1 * k.val = k.val; rw [e1]; omega

/-- Point t's block of the pair's weights is the whole array. -/
theorem w1blk_apply (c : Dev nD) (t : Fin cfg0.N) (k : Fin 768) (q : Fin 1536) :
    (iblk m c 7 t : Vec Ideal S768x1536 .bf16) (ix2 k q) = (V m c main_v11 : S768x1536.Idx → EReal) (ix2 k q) := by
  obtain ⟨-, -, -, -, e0, e1, -⟩ := idx_facts1 t
  unfold iblk
  rw [View.read_apply]
  show V m c main_v11 _ = V m c main_v11 _
  congr 1
  funext a
  apply Fin.ext
  match a with
  | ⟨0, _⟩ => show win0_7.index t (0 : Fin 2) * 768 + 1 * k.val = k.val; rw [e0]; omega
  | ⟨1, _⟩ => show win0_7.index t (1 : Fin 2) * 1536 + 1 * q.val = q.val; rw [e1]; omega

/-- Point t's blocks of the pair's real rows, imaginary rows and weights, at their literal types. -/
abbrev xr1blk (c : Dev nD) (t : Fin cfg0.N) : Vec Ideal S400x768 .f32 := iblk m c 1 t
abbrev xi1blk (c : Dev nD) (t : Fin cfg0.N) : Vec Ideal S400x768 .f32 := iblk m c 2 t
abbrev w1blk (c : Dev nD) (t : Fin cfg0.N) : Vec Ideal S768x1536 .bf16 := iblk m c 7 t

/-- The real rows of point t's block against a column of the pair's weights. -/
theorem dot1r_eq (c : Dev nD) (t : Fin cfg0.N) (p : Fin 400) (j : Fin 1536) (e : Fin 60000)
    (he : e.val = 400 * t.val + p.val) :
    (∑ k : Fin 768, (xr1blk m c t (ix2 p k) : EReal) * (w1blk m c t (ix2 k j) : EReal))
      = Cert.Spec.dotRow (m ((c.tc : Thread nD τ).loc main_arg0)) 7 768 1536 (by norm_num) (m ((c.tc : Thread nD τ).loc main_arg4)) e j := by
  unfold Cert.Spec.dotRow
  refine Finset.sum_congr rfl fun k _ => ?_
  congr 1
  · exact (x1rblk_apply m c t p k e he).trans (x1r_apply m c e k)
  · exact (w1blk_apply m c t k j).trans (congrFun (V_main_v11 m c) (ix2 k j))

/-- The imaginary rows of point t's block against a column of the pair's weights. -/
theorem dot1i_eq (c : Dev nD) (t : Fin cfg0.N) (p : Fin 400) (j : Fin 1536) (e : Fin 60000)
    (he : e.val = 400 * t.val + p.val) :
    (∑ k : Fin 768, (xi1blk m c t (ix2 p k) : EReal) * (w1blk m c t (ix2 k j) : EReal))
      = Cert.Spec.dotRow (m ((c.tc : Thread nD τ).loc main_arg0)) 13 768 1536 (by norm_num) (m ((c.tc : Thread nD τ).loc main_arg4)) e j := by
  unfold Cert.Spec.dotRow
  refine Finset.sum_congr rfl fun k _ => ?_
  congr 1
  · exact (x1iblk_apply m c t p k e he).trans (x1i_apply m c e k)
  · exact (w1blk_apply m c t k j).trans (congrFun (V_main_v11 m c) (ix2 k j))

/-! ## The first pair's result arrays -/

/-- What point t writes back to the pair's real result array is block t of the specification's array. -/
theorem flushed10_eq (c : Dev nD) (t : Fin cfg0.N) :
    (dats m 0 c).flushed 10 t = ((cfg0.win 10).blk t).view.read (Elt Ideal)
      (Cert.Spec.pair1Re (m ((c.tc : Thread nD τ).loc main_arg0)) (m ((c.tc : Thread nD τ).loc main_arg4))) := by
  show (cfg0.win 10).cut (grid0.coords t) ((dats m 0 c).after 10 t) = _
  rw [after_10]
  funext y
  obtain ⟨p, q, rfl⟩ : ∃ (p : Fin 400) (q : Fin 768), y = ix2 p q := ⟨y 0, y 1, eq_ix2 y⟩
  obtain ⟨-, -, -, -, -, -, e0, e1, -⟩ := idx_facts1 t
  have hN : cfg0.N = 150 := N_0
  have ht := t.isLt
  have hp := p.isLt
  have hq := q.isLt
  have hxinj : (cfg0.win 10).xinj (grid0.coords t) (ix2 p q) = ix2 p q :=
    funext fun a => by match a with | ⟨0, _⟩ => rfl | ⟨1, _⟩ => rfl
  have hemb : ((cfg0.win 10).blk t).view.emb (ix2 p q) = ix2 (⟨400 * t.val + p.val, by omega⟩ : Fin 60000) q := by
    funext a
    apply Fin.ext
    match a with
    | ⟨0, _⟩ => show win0_10.index t (0 : Fin 2) * 400 + 1 * p.val = 400 * t.val + p.val; rw [e0]; omega
    | ⟨1, _⟩ => show win0_10.index t (1 : Fin 2) * 768 + 1 * q.val = q.val; rw [e1]; omega
  rw [View.read_apply]
  show res1r (iblk m c 1 t) (iblk m c 2 t) (iblk m c 7 t) ((cfg0.win 10).xinj (grid0.coords t) (ix2 p q))
    = Cert.Spec.pair1Re (m ((c.tc : Thread nD τ).loc main_arg0)) (m ((c.tc : Thread nD τ).loc main_arg4))
        (((cfg0.win 10).blk t).view.emb (ix2 p q))
  rw [hxinj, hemb]
  refine (BlockValue.res1r_apply (iblk m c 1 t) (iblk m c 2 t) (iblk m c 7 t) p q).trans ?_
  exact congrArg₂ (· - ·)
    (dot1r_eq m c t p (⟨q.val, by omega⟩ : Fin 1536) (⟨400 * t.val + p.val, by omega⟩ : Fin 60000) rfl)
    (dot1i_eq m c t p (⟨768 + q.val, by omega⟩ : Fin 1536) (⟨400 * t.val + p.val, by omega⟩ : Fin 60000) rfl)

/-- Row e of the pair's real result array lies in the block of point e / 400. -/
theorem cover10 (i : S60000x768.Idx) :
    ∃ t : Fin cfg0.N, (cfg0.win 10).flush t = true ∧ i ∈ ((cfg0.win 10).blk t).view.set := by
  have hN : cfg0.N = 150 := N_0
  have hi0 : (i 0).val < 60000 := (i 0).isLt
  have hi1 : (i 1).val < 768 := (i 1).isLt
  obtain ⟨t, ht⟩ : ∃ t : Fin cfg0.N, t.val = (i 0).val / 400 := ⟨⟨(i 0).val / 400, by omega⟩, rfl⟩
  refine ⟨t, flush0_10 t, ?_⟩
  obtain ⟨-, -, -, -, -, -, e0, e1, -⟩ := idx_facts1 t
  show i ∈ ((View.whole main_v14_1).slice (win0_10.rect t)).set
  rw [View.set_slice_whole, Rect.mem_set_unit]
  intro a
  match a with
  | ⟨0, _⟩ =>
    show win0_10.index t (0 : Fin 2) * 400 ≤ (i 0).val ∧ (i 0).val < win0_10.index t (0 : Fin 2) * 400 + 400
    rw [e0, ht]
    omega
  | ⟨1, _⟩ =>
    show win0_10.index t (1 : Fin 2) * 768 ≤ (i 1).val ∧ (i 1).val < win0_10.index t (1 : Fin 2) * 768 + 768
    rw [e1]
    omega

/-- The first pair's real result array. -/
theorem final10 (c : Dev nD) :
    (dats m 0 c).arrAt 10 cfg0.N
      = Cert.Spec.pair1Re (m ((c.tc : Thread nD τ).loc main_arg0)) (m ((c.tc : Thread nD τ).loc main_arg4)) :=
  (dats m 0 c).arrAt_eq_of_cover 10 _ (fun t _ => flushed10_eq m c t) cover10

/-- What point t writes back to the pair's imaginary result array is block t of the specification's array. -/
theorem flushed11_eq (c : Dev nD) (t : Fin cfg0.N) :
    (dats m 0 c).flushed 11 t = ((cfg0.win 11).blk t).view.read (Elt Ideal)
      (Cert.Spec.pair1Im (m ((c.tc : Thread nD τ).loc main_arg0)) (m ((c.tc : Thread nD τ).loc main_arg4))) := by
  show (cfg0.win 11).cut (grid0.coords t) ((dats m 0 c).after 11 t) = _
  rw [after_11]
  funext y
  obtain ⟨p, q, rfl⟩ : ∃ (p : Fin 400) (q : Fin 768), y = ix2 p q := ⟨y 0, y 1, eq_ix2 y⟩
  obtain ⟨-, -, -, -, -, -, -, -, e0, e1⟩ := idx_facts1 t
  have hN : cfg0.N = 150 := N_0
  have ht := t.isLt
  have hp := p.isLt
  have hq := q.isLt
  have hxinj : (cfg0.win 11).xinj (grid0.coords t) (ix2 p q) = ix2 p q :=
    funext fun a => by match a with | ⟨0, _⟩ => rfl | ⟨1, _⟩ => rfl
  have hemb : ((cfg0.win 11).blk t).view.emb (ix2 p q) = ix2 (⟨400 * t.val + p.val, by omega⟩ : Fin 60000) q := by
    funext a
    apply Fin.ext
    match a with
    | ⟨0, _⟩ => show win0_11.index t (0 : Fin 2) * 400 + 1 * p.val = 400 * t.val + p.val; rw [e0]; omega
    | ⟨1, _⟩ => show win0_11.index t (1 : Fin 2) * 768 + 1 * q.val = q.val; rw [e1]; omega
  rw [View.read_apply]
  show res1i (iblk m c 1 t) (iblk m c 2 t) (iblk m c 7 t) ((cfg0.win 11).xinj (grid0.coords t) (ix2 p q))
    = Cert.Spec.pair1Im (m ((c.tc : Thread nD τ).loc main_arg0)) (m ((c.tc : Thread nD τ).loc main_arg4))
        (((cfg0.win 11).blk t).view.emb (ix2 p q))
  rw [hxinj, hemb]
  refine (BlockValue.res1i_apply (iblk m c 1 t) (iblk m c 2 t) (iblk m c 7 t) p q).trans ?_
  exact congrArg₂ (· + ·)
    (dot1i_eq m c t p (⟨q.val, by omega⟩ : Fin 1536) (⟨400 * t.val + p.val, by omega⟩ : Fin 60000) rfl)
    (dot1r_eq m c t p (⟨768 + q.val, by omega⟩ : Fin 1536) (⟨400 * t.val + p.val, by omega⟩ : Fin 60000) rfl)

/-- Row e of the pair's imaginary result array lies in the block of point e / 400. -/
theorem cover11 (i : S60000x768.Idx) :
    ∃ t : Fin cfg0.N, (cfg0.win 11).flush t = true ∧ i ∈ ((cfg0.win 11).blk t).view.set := by
  have hN : cfg0.N = 150 := N_0
  have hi0 : (i 0).val < 60000 := (i 0).isLt
  have hi1 : (i 1).val < 768 := (i 1).isLt
  obtain ⟨t, ht⟩ : ∃ t : Fin cfg0.N, t.val = (i 0).val / 400 := ⟨⟨(i 0).val / 400, by omega⟩, rfl⟩
  refine ⟨t, flush0_11 t, ?_⟩
  obtain ⟨-, -, -, -, -, -, -, -, e0, e1⟩ := idx_facts1 t
  show i ∈ ((View.whole main_v14_2).slice (win0_11.rect t)).set
  rw [View.set_slice_whole, Rect.mem_set_unit]
  intro a
  match a with
  | ⟨0, _⟩ =>
    show win0_11.index t (0 : Fin 2) * 400 ≤ (i 0).val ∧ (i 0).val < win0_11.index t (0 : Fin 2) * 400 + 400
    rw [e0, ht]
    omega
  | ⟨1, _⟩ =>
    show win0_11.index t (1 : Fin 2) * 768 ≤ (i 1).val ∧ (i 1).val < win0_11.index t (1 : Fin 2) * 768 + 768
    rw [e1]
    omega

/-- The first pair's imaginary result array. -/
theorem final11 (c : Dev nD) :
    (dats m 0 c).arrAt 11 cfg0.N
      = Cert.Spec.pair1Im (m ((c.tc : Thread nD τ).loc main_arg0)) (m ((c.tc : Thread nD τ).loc main_arg4)) :=
  (dats m 0 c).arrAt_eq_of_cover 11 _ (fun t _ => flushed11_eq m c t) cover11

end Cert.KernelIdeal.ArrayValue

end
-- ==== Proof.ArrayValue2.lean ====
/-
  The second complex pair's two result arrays after the region, at the ideal values. Block `t` of a result array
  holds rows `400 t … 400 t + 399`; the body fills it from the same rows of the two feature arrays — rows 19–23 and
  24–28 of `x`, which the host lines before the region cut out and flatten — and from the whole weight array, which
  the narrowing to the short float format leaves as it was, so entry `(e, j)` of a result array is the
  specification's entry. The blocks of the 150 grid points cover the 60000 rows.
-/
import proofs.«134896_j3470333575341_1_alg».proof.Proof.RegionData
import proofs.«134896_j3470333575341_1_alg».proof.Proof.BlockValue
import proofs.«134896_j3470333575341_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region

variable (m : (ℓ : Loc nD τ sig) → Buf (Elt Ideal) ℓ)

/-! ## Names of literal type for the arrays and the blocks -/

/-- The launch features. -/
private abbrev feat (c : Dev nD) : Cert.Spec.Feat := m ((c.tc : Thread nD τ).loc main_arg0)
/-- The launch weights of the second pair. -/
private abbrev wts (c : Dev nD) : FVec Ideal S640x1280 .f32 := m ((c.tc : Thread nD τ).loc main_arg5)
/-- Rows 19–23 of every edge, flattened, as the region finds them. -/
private abbrev xRe (c : Dev nD) : FVec Ideal S60000x640 .f32 := V m c main_v7
/-- Rows 24–28 of every edge, flattened, as the region finds them. -/
private abbrev xIm (c : Dev nD) : FVec Ideal S60000x640 .f32 := V m c main_v9
/-- The second pair's weights in the short format, as the region finds them. -/
private abbrev wLo (c : Dev nD) : FVec Ideal S640x1280 .bf16 := V m c main_v12
/-- Block `t` of the real rows. -/
private abbrev bRe (c : Dev nD) (t : Fin cfg0.N) : Vec Ideal S400x640 .f32 := iblk m c 3 t
/-- Block `t` of the imaginary rows. -/
private abbrev bIm (c : Dev nD) (t : Fin cfg0.N) : Vec Ideal S400x640 .f32 := iblk m c 4 t
/-- The weights' one block. -/
private abbrev bW (c : Dev nD) (t : Fin cfg0.N) : Vec Ideal S640x1280 .bf16 := iblk m c 8 t

/-! ## The arrays the host lines wrote, read at an entry -/

private theorem xRe_eq (c : Dev nD) : xRe m c
    = shapeCast S60000x640 (extractStridedSlice S60000x5x128 ![0, 19, 0] (feat m c) slices_S60000x29x128_S60000x5x128_0_19_0) shapeCasts_S60000x5x128_S60000x640 := by
  show StableHlo.after hostOps0 (fun b => m (c, b)) (Proc.devRef .tc main_v7) = _
  after_results
  rfl

private theorem xIm_eq (c : Dev nD) : xIm m c
    = shapeCast S60000x640 (extractStridedSlice S60000x5x128 ![0, 24, 0] (feat m c) slices_S60000x29x128_S60000x5x128_0_24_0) shapeCasts_S60000x5x128_S60000x640 := by
  show StableHlo.after hostOps0 (fun b => m (c, b)) (Proc.devRef .tc main_v9) = _
  after_results
  rfl

private theorem wLo_eq (c : Dev nD) : wLo m c = truncf .bf16 (wts m c) bitsLt_bf16_f32 := by
  show StableHlo.after hostOps0 (fun b => m (c, b)) (Proc.devRef .tc main_v12) = _
  after_results

/-- Rows `r0 … r0 + 4` cut out of the features and flattened: entry `(e, k)` is row `r0 + k / 128`, lane `k % 128`. -/
private theorem rows5_apply (x : Cert.Spec.Feat) (r0 : Nat) (hs : S60000x29x128.Slices ![0, r0, 0] S60000x5x128)
    (h : r0 * 128 + 640 ≤ 29 * 128) (e : Fin 60000) (k : Fin 640) :
    shapeCast S60000x640 (extractStridedSlice S60000x5x128 ![0, r0, 0] x hs) shapeCasts_S60000x5x128_S60000x640 (ix2 e k)
      = Cert.Spec.flat x r0 640 h e k := by
  have hk := k.isLt
  refine (shapeCast_apply _ _ (ix2 e k) (ix3 e (⟨k.val / 128, by omega⟩ : Fin 5) (⟨k.val % 128, Nat.mod_lt _ (by norm_num)⟩ : Fin 128)) ?_).trans ?_
  · rw [Shape.rowMajor_val_three, Shape.rowMajor_val_two]
    show (e.val * 5 + k.val / 128) * 128 + k.val % 128 = e.val * 640 + k.val
    omega
  · refine extractStridedSlice_apply _ _ _ _ (ix3 e (⟨r0 + k.val / 128, by omega⟩ : Fin 29) (⟨k.val % 128, Nat.mod_lt _ (by norm_num)⟩ : Fin 128)) fun a => ?_
    match a with
    | ⟨0, _⟩ => show e.val = 0 + e.val; omega
    | ⟨1, _⟩ => show r0 + k.val / 128 = r0 + k.val / 128; rfl
    | ⟨2, _⟩ => show k.val % 128 = 0 + k.val % 128; omega

private theorem xRe_apply (c : Dev nD) (e : Fin 60000) (k : Fin 640) :
    xRe m c (ix2 e k) = Cert.Spec.flat (feat m c) 19 640 (by norm_num) e k := by
  rw [xRe_eq]
  exact rows5_apply (feat m c) 19 _ _ e k

private theorem xIm_apply (c : Dev nD) (e : Fin 60000) (k : Fin 640) :
    xIm m c (ix2 e k) = Cert.Spec.flat (feat m c) 24 640 (by norm_num) e k := by
  rw [xIm_eq]
  exact rows5_apply (feat m c) 24 _ _ e k

private theorem wLo_apply (c : Dev nD) (k : Fin 640) (j : Fin 1280) : wLo m c (ix2 k j) = wts m c (ix2 k j) := by
  rw [wLo_eq]
  rfl

/-! ## The blocks at a grid point, read off the arrays -/

/-- The windows' index maps over the grid: the row blocks sit at block `(t, 0)`, the weights at `(0, 0)`. -/
private theorem idx_facts : ∀ t : Fin cfg0.N,
    win0_3.index t (0 : Fin 2) = t.val ∧ win0_3.index t (1 : Fin 2) = 0
    ∧ win0_4.index t (0 : Fin 2) = t.val ∧ win0_4.index t (1 : Fin 2) = 0
    ∧ win0_8.index t (0 : Fin 2) = 0 ∧ win0_8.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

private theorem bRe_apply (c : Dev nD) (t : Fin cfg0.N) (p : Fin 400) (k : Fin 640) (e : Fin 60000)
    (he : e.val = t.val * 400 + p.val) : bRe m c t (ix2 p k) = xRe m c (ix2 e k) := by
  obtain ⟨h0, h1, -⟩ := idx_facts t
  show V m c main_v7 (((cfg0.win 3).blk t).view.emb (ix2 p k)) = V m c main_v7 (ix2 e k)
  refine congrArg (V m c main_v7) (funext fun a => Fin.ext ?_)
  match a with
  | ⟨0, _⟩ => show win0_3.index t (0 : Fin 2) * 400 + 1 * p.val = e.val; omega
  | ⟨1, _⟩ => show win0_3.index t (1 : Fin 2) * 640 + 1 * k.val = k.val; omega

private theorem bIm_apply (c : Dev nD) (t : Fin cfg0.N) (p : Fin 400) (k : Fin 640) (e : Fin 60000)
    (he : e.val = t.val * 400 + p.val) : bIm m c t (ix2 p k) = xIm m c (ix2 e k) := by
  obtain ⟨-, -, h0, h1, -⟩ := idx_facts t
  show V m c main_v9 (((cfg0.win 4).blk t).view.emb (ix2 p k)) = V m c main_v9 (ix2 e k)
  refine congrArg (V m c main_v9) (funext fun a => Fin.ext ?_)
  match a with
  | ⟨0, _⟩ => show win0_4.index t (0 : Fin 2) * 400 + 1 * p.val = e.val; omega
  | ⟨1, _⟩ => show win0_4.index t (1 : Fin 2) * 640 + 1 * k.val = k.val; omega

private theorem bW_apply (c : Dev nD) (t : Fin cfg0.N) (k : Fin 640) (j : Fin 1280) :
    bW m c t (ix2 k j) = wLo m c (ix2 k j) := by
  obtain ⟨-, -, -, -, h0, h1, -⟩ := idx_facts t
  show V m c main_v12 (((cfg0.win 8).blk t).view.emb (ix2 k j)) = V m c main_v12 (ix2 k j)
  refine congrArg (V m c main_v12) (funext fun a => Fin.ext ?_)
  match a with
  | ⟨0, _⟩ => show win0_8.index t (0 : Fin 2) * 640 + 1 * k.val = k.val; omega
  | ⟨1, _⟩ => show win0_8.index t (1 : Fin 2) * 1280 + 1 * j.val = j.val; omega

/-! ## What a point writes back, and the arrays after the run -/

/-- The specification's real result of the second pair. -/
private abbrev G12 (c : Dev nD) : FVec Ideal S60000x640 .f32 := Cert.Spec.pair2Re (feat m c) (wts m c)
/-- The specification's imaginary result of the second pair. -/
private abbrev G13 (c : Dev nD) : FVec Ideal S60000x640 .f32 := Cert.Spec.pair2Im (feat m c) (wts m c)

private theorem G12_apply (c : Dev nD) (e : Fin 60000) (q : Fin 640) :
    G12 m c (ix2 e q)
      = (∑ k : Fin 640, Cert.Spec.flat (feat m c) 19 640 (by norm_num) e k * wts m c (ix2 k (⟨q.val, by omega⟩ : Fin 1280)))
        - (∑ k : Fin 640, Cert.Spec.flat (feat m c) 24 640 (by norm_num) e k * wts m c (ix2 k (⟨640 + q.val, by omega⟩ : Fin 1280))) := rfl

private theorem G13_apply (c : Dev nD) (e : Fin 60000) (q : Fin 640) :
    G13 m c (ix2 e q)
      = (∑ k : Fin 640, Cert.Spec.flat (feat m c) 24 640 (by norm_num) e k * wts m c (ix2 k (⟨q.val, by omega⟩ : Fin 1280)))
        + (∑ k : Fin 640, Cert.Spec.flat (feat m c) 19 640 (by norm_num) e k * wts m c (ix2 k (⟨640 + q.val, by omega⟩ : Fin 1280))) := rfl

/-- A product of the real block's row `p` with a weight column is the specification's term for array row `400 t + p`. -/
private theorem termRe (c : Dev nD) (t : Fin cfg0.N) (p : Fin 400) (e : Fin 60000) (he : e.val = t.val * 400 + p.val)
    (j : Fin 1280) (k : Fin 640) :
    (bRe m c t (ix2 p k) : EReal) * (bW m c t (ix2 k j) : EReal)
      = Cert.Spec.flat (feat m c) 19 640 (by norm_num) e k * wts m c (ix2 k j) := by
  rw [bRe_apply m c t p k e he, xRe_apply, bW_apply, wLo_apply]

/-- The same for the imaginary block. -/
private theorem termIm (c : Dev nD) (t : Fin cfg0.N) (p : Fin 400) (e : Fin 60000) (he : e.val = t.val * 400 + p.val)
    (j : Fin 1280) (k : Fin 640) :
    (bIm m c t (ix2 p k) : EReal) * (bW m c t (ix2 k j) : EReal)
      = Cert.Spec.flat (feat m c) 24 640 (by norm_num) e k * wts m c (ix2 k j) := by
  rw [bIm_apply m c t p k e he, xIm_apply, bW_apply, wLo_apply]

/-- Entry `(p, q)` of point `t`'s block of a result array is entry `(400 t + p, q)` of the array. -/
private theorem emb12 (t : Fin cfg0.N) (p : Fin 400) (q : Fin 640) (e : Fin 60000) (he : e.val = t.val * 400 + p.val) :
    ((cfg0.win 12).blk t).view.emb (ix2 p q) = (ix2 e q : S60000x640.Idx) := by
  obtain ⟨-, -, -, -, -, -, h0, h1, -⟩ := idx_facts t
  funext a
  apply Fin.ext
  match a with
  | ⟨0, _⟩ => show win0_12.index t (0 : Fin 2) * 400 + 1 * p.val = e.val; omega
  | ⟨1, _⟩ => show win0_12.index t (1 : Fin 2) * 640 + 1 * q.val = q.val; omega

private theorem emb13 (t : Fin cfg0.N) (p : Fin 400) (q : Fin 640) (e : Fin 60000) (he : e.val = t.val * 400 + p.val) :
    ((cfg0.win 13).blk t).view.emb (ix2 p q) = (ix2 e q : S60000x640.Idx) := by
  obtain ⟨-, -, -, -, -, -, -, -, h0, h1⟩ := idx_facts t
  funext a
  apply Fin.ext
  match a with
  | ⟨0, _⟩ => show win0_13.index t (0 : Fin 2) * 400 + 1 * p.val = e.val; omega
  | ⟨1, _⟩ => show win0_13.index t (1 : Fin 2) * 640 + 1 * q.val = q.val; omega

/-- What point `t` writes back to the real result array is block `t` of the specification's array. -/
private theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after_12]
  funext y
  obtain ⟨p, q, rfl⟩ : ∃ (p : Fin 400) (q : Fin 640), y = ix2 p q := ⟨y 0, y 1, eq_ix2 y⟩
  have ht : t.val < 150 := lt_of_lt_of_eq t.isLt N_0
  have hp : p.val < 400 := p.isLt
  obtain ⟨e, he⟩ : ∃ e : Fin 60000, e.val = t.val * 400 + p.val := ⟨⟨t.val * 400 + p.val, by omega⟩, rfl⟩
  show res2r (F := Ideal) (bRe m c t) (bIm m c t) (bW m c t) (ix2 p q) = G12 m c (((cfg0.win 12).blk t).view.emb (ix2 p q))
  rw [emb12 t p q e he, G12_apply]
  refine (BlockValue.res2r_apply (bRe m c t) (bIm m c t) (bW m c t) p q).trans ?_
  exact congrArg₂ (· - ·) (Finset.sum_congr rfl fun k _ => termRe m c t p e he _ k)
    (Finset.sum_congr rfl fun k _ => termIm m c t p e he _ k)

/-- An entry of the array is in point `t`'s block iff each coordinate is in the block's range on its axis. -/
private theorem mem_blk12 (t : Fin cfg0.N) (i : S60000x640.Idx) :
    i ∈ ((cfg0.win 12).blk t).view.set ↔ ∀ a : Fin 2, win0_12.index t a * S400x640.size a ≤ (i a).val ∧ (i a).val < win0_12.index t a * S400x640.size a + S400x640.size a := by
  show i ∈ ((View.whole main_v14_3).slice (win0_12.rect t)).set ↔ _
  rw [View.set_slice_whole, Rect.mem_set_unit]
  exact Iff.rfl

/-- Row `e` lies in the block of point `e / 400`: the 150 blocks cover the 60000 rows. -/
private theorem cover12 (i : S60000x640.Idx) :
    ∃ t : Fin cfg0.N, (cfg0.win 12).flush t = true ∧ i ∈ ((cfg0.win 12).blk t).view.set := by
  have hi0 : (i 0).val < 60000 := idx2_lt0 i
  have hi1 : (i 1).val < 640 := idx2_lt1 i
  have hN : cfg0.N = 150 := N_0
  obtain ⟨t, ht⟩ : ∃ t : Fin cfg0.N, t.val = (i 0).val / 400 := ⟨⟨(i 0).val / 400, by rw [hN]; omega⟩, rfl⟩
  obtain ⟨-, -, -, -, -, -, h0, h1, -⟩ := idx_facts t
  refine ⟨t, flush0_12 t, ?_⟩
  rw [mem_blk12]
  intro a
  match a with
  | ⟨0, _⟩ => show win0_12.index t (0 : Fin 2) * 400 ≤ (i 0).val ∧ (i 0).val < win0_12.index t (0 : Fin 2) * 400 + 400; omega
  | ⟨1, _⟩ => show win0_12.index t (1 : Fin 2) * 640 ≤ (i 1).val ∧ (i 1).val < win0_12.index t (1 : Fin 2) * 640 + 640; omega

/-- The second pair's real result array. -/
theorem final12 (c : Dev nD) :
    (dats m 0 c).arrAt 12 cfg0.N
      = Cert.Spec.pair2Re (m ((c.tc : Thread nD τ).loc main_arg0)) (m ((c.tc : Thread nD τ).loc main_arg5)) :=
  (dats m 0 c).arrAt_eq_of_cover 12 (G12 m c) (fun t _ => flushed12_eq m c t) cover12

/-- What point `t` writes back to the imaginary result array is block `t` of the specification's array. -/
private theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after_13]
  funext y
  obtain ⟨p, q, rfl⟩ : ∃ (p : Fin 400) (q : Fin 640), y = ix2 p q := ⟨y 0, y 1, eq_ix2 y⟩
  have ht : t.val < 150 := lt_of_lt_of_eq t.isLt N_0
  have hp : p.val < 400 := p.isLt
  obtain ⟨e, he⟩ : ∃ e : Fin 60000, e.val = t.val * 400 + p.val := ⟨⟨t.val * 400 + p.val, by omega⟩, rfl⟩
  show res2i (F := Ideal) (bRe m c t) (bIm m c t) (bW m c t) (ix2 p q) = G13 m c (((cfg0.win 13).blk t).view.emb (ix2 p q))
  rw [emb13 t p q e he, G13_apply]
  refine (BlockValue.res2i_apply (bRe m c t) (bIm m c t) (bW m c t) p q).trans ?_
  exact congrArg₂ (· + ·) (Finset.sum_congr rfl fun k _ => termIm m c t p e he _ k)
    (Finset.sum_congr rfl fun k _ => termRe m c t p e he _ k)

/-- The same membership for the imaginary result array's blocks. -/
private theorem mem_blk13 (t : Fin cfg0.N) (i : S60000x640.Idx) :
    i ∈ ((cfg0.win 13).blk t).view.set ↔ ∀ a : Fin 2, win0_13.index t a * S400x640.size a ≤ (i a).val ∧ (i a).val < win0_13.index t a * S400x640.size a + S400x640.size a := by
  show i ∈ ((View.whole main_v14_4).slice (win0_13.rect t)).set ↔ _
  rw [View.set_slice_whole, Rect.mem_set_unit]
  exact Iff.rfl

/-- And the same cover. -/
private theorem cover13 (i : S60000x640.Idx) :
    ∃ t : Fin cfg0.N, (cfg0.win 13).flush t = true ∧ i ∈ ((cfg0.win 13).blk t).view.set := by
  have hi0 : (i 0).val < 60000 := idx2_lt0 i
  have hi1 : (i 1).val < 640 := idx2_lt1 i
  have hN : cfg0.N = 150 := N_0
  obtain ⟨t, ht⟩ : ∃ t : Fin cfg0.N, t.val = (i 0).val / 400 := ⟨⟨(i 0).val / 400, by rw [hN]; omega⟩, rfl⟩
  obtain ⟨-, -, -, -, -, -, -, -, h0, h1⟩ := idx_facts t
  refine ⟨t, flush0_13 t, ?_⟩
  rw [mem_blk13]
  intro a
  match a with
  | ⟨0, _⟩ => show win0_13.index t (0 : Fin 2) * 400 ≤ (i 0).val ∧ (i 0).val < win0_13.index t (0 : Fin 2) * 400 + 400; omega
  | ⟨1, _⟩ => show win0_13.index t (1 : Fin 2) * 640 ≤ (i 1).val ∧ (i 1).val < win0_13.index t (1 : Fin 2) * 640 + 640; omega

/-- The second pair's imaginary result array. -/
theorem final13 (c : Dev nD) :
    (dats m 0 c).arrAt 13 cfg0.N
      = Cert.Spec.pair2Im (m ((c.tc : Thread nD τ).loc main_arg0)) (m ((c.tc : Thread nD τ).loc main_arg5)) :=
  (dats m 0 c).arrAt_eq_of_cover 13 (G13 m c) (fun t _ => flushed13_eq m c t) cover13

end Cert.KernelIdeal.ArrayValue2

end
-- ==== Proof.ResultValue.lean ====
/-
  The five result arrays after the region, and the program's result after the host lines that follow it, at the
  ideal values. Block `t` of a result array holds rows `400 t … 400 t + 399`; the body fills it from the same rows
  of the feature arrays — which the host lines before the region cut out of `x` and flatten — and from the whole
  weight arrays, so entry `(e, j)` of a result array is the specification's entry. The blocks of the 150 grid points
  cover the 60000 rows. The host lines after the region re-lay the five arrays as rows of 128 lanes and stack them.
-/
import proofs.«134896_j3470333575341_1_alg».proof.Proof.RegionData
import proofs.«134896_j3470333575341_1_alg».proof.Proof.ArrayValue
import proofs.«134896_j3470333575341_1_alg».proof.Proof.ArrayValue2
import proofs.«134896_j3470333575341_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ResultValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Region

variable (m : (ℓ : Loc nD τ sig) → Buf (Elt Ideal) ℓ)

/-- A five-operand host operation read at its result buffer, each operand's contents at its own reference. -/
theorem nary5_result {Val : EltTy → Type} {x a b e g y : Ref sig .tc}
    (f : ((k : Fin 5) → ((![x, a, b, e, g] : Fin 5 → Ref sig .tc) k).ty.Contents Val) → y.ty.Contents Val) (hxs hy)
    (W : Valuation τ sig Val) :
    (StableHlo.nary (τ := τ) ![x, a, b, e, g] y f hxs hy).result W (Proc.devRef .tc y)
      = f (Fin.cons (W (Proc.devRef .tc x)) (Fin.cons (W (Proc.devRef .tc a)) (Fin.cons (W (Proc.devRef .tc b))
          (Fin.cons (W (Proc.devRef .tc e)) (Fin.cons (W (Proc.devRef .tc g)) (fun i => i.elim0)))))) := by
  rw [StableHlo.nary_result]; congr 1; funext k; fin_cases k <;> rfl

/-- The six host lines after the region, from any contents: the result buffer ends at the five result arrays re-laid
    and stacked. -/
theorem tail_eq (W : Valuation τ sig (Elt Ideal)) :
    StableHlo.after hostOps1 W (Proc.devRef .tc main_v20)
      = Cert.Spec.assemble (W (Proc.devRef .tc main_v14_0)) (W (Proc.devRef .tc main_v14_1)) (W (Proc.devRef .tc main_v14_2))
          (W (Proc.devRef .tc main_v14_3)) (W (Proc.devRef .tc main_v14_4)) := by
  simp only [StableHlo.after_cons, StableHlo.after_nil]
  rw [nary5_result]
  repeat (first | rw [StableHlo.reshape_result] | (rw [StableHlo.reshape_result_ne]; rotate_left; decide))
  rfl

/-- The program's result after the host lines that follow the region. -/
theorem result_eq (c : Dev nD) :
    Pipeline.afterTail₀ cfgs (dats m) 0 (V0 m) [hostOps1] c main_v20
      = Cert.Spec.result (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v20) = _
  rw [tail_eq]
  unfold Cert.Spec.result
  congr 1
  · exact (Pipeline.withArrays_arr spec0 launch0.win.arr_inj c _ _ 9).trans (Cert.KernelIdeal.ArrayValue.final9 m c)
  · exact (Pipeline.withArrays_arr spec0 launch0.win.arr_inj c _ _ 10).trans (Cert.KernelIdeal.ArrayValue.final10 m c)
  · exact (Pipeline.withArrays_arr spec0 launch0.win.arr_inj c _ _ 11).trans (Cert.KernelIdeal.ArrayValue.final11 m c)
  · exact (Pipeline.withArrays_arr spec0 launch0.win.arr_inj c _ _ 12).trans (Cert.KernelIdeal.ArrayValue2.final12 m c)
  · exact (Pipeline.withArrays_arr spec0 launch0.win.arr_inj c _ _ 13).trans (Cert.KernelIdeal.ArrayValue2.final13 m c)

end Cert.KernelIdeal.ResultValue

end
-- ==== Proof.RefStages.lean ====
/-
  The reference's result, stage by stage, as the functions of the argument arrays that the specification names:
  the flattened rows of each group against the weights' columns, the bias added to the first, the pairs' halves
  subtracted and added, and the five re-laid results stacked.
-/
import proofs.«134896_j3470333575341_1_alg».proof.Proof.Gen.ReferenceIdeal.Run
import proofs.«134896_j3470333575341_1_alg».proof.Proof.Gen.ReferenceIdeal.Read
import proofs.«134896_j3470333575341_1_alg».proof.Proof.Spec
import Idealize.ShloMosaic.PureOps.Ideal.Laws

noncomputable section

namespace Cert.ReferenceIdeal.Stages

open Idealize.ShloMosaic Idealize.ShloMosaic.TcCoe Idealize.SL.Sem Idealize.ShloMosaic.ValueIdx
open Cert.ReferenceIdeal Cert.ReferenceIdeal.Read

/-- The first group's sum plus bias. -/
theorem stage_group0 (x : (⟨S60000x29x128, .f32⟩ : BufTy).Contents (Elt Ideal)) (w0 : (⟨S896x896, .f32⟩ : BufTy).Contents (Elt Ideal))
    (b : (⟨S896, .f32⟩ : BufTy).Contents (Elt Ideal)) :
    val_main_v7 (F := Ideal) x w0 b = Cert.Spec.group0 x w0 b := by
  funext i
  obtain ⟨e, j, rfl⟩ : ∃ (e : Fin 60000) (j : Fin 896), i = ix2 e j := ⟨i 0, i 1, eq_ix2 i⟩
  have he := e.isLt
  have hj := j.isLt
  rw [val_main_v7_apply, val_main_v4_apply, val_main_v6_apply, val_main_v5_apply]
  unfold Cert.Spec.group0 Cert.Spec.dotRow
  rw [Ideal.addf_def]
  congr 1
  · -- term by term: entry `k` of the flattened rows 0–6 is row `k / 128`, lane `k % 128`
    refine Finset.sum_congr rfl fun k _ => ?_
    have hk := k.isLt
    rw [val_main_v3_apply, val_main_v0_apply]
    unfold Cert.Spec.flat
    congr 1
    · refine congrArg x (funext fun a => Fin.ext ?_)
      match a with
      | ⟨0, _⟩ => show (e.val * 896 + k.val) / 896 = e.val; omega
      | ⟨1, _⟩ => show (e.val * 896 + k.val) / 128 % 7 = 0 + k.val / 128; omega
      | ⟨2, _⟩ => show (e.val * 896 + k.val) % 128 = k.val % 128; omega
    · refine congrArg w0 (funext fun a => Fin.ext ?_)
      match a with
      | ⟨0, _⟩ => rfl
      | ⟨1, _⟩ => rfl
  · -- the bias, broadcast along the edges, read at column `j`
    refine congrArg b (funext fun a => Fin.ext ?_)
    match a with
    | ⟨0, _⟩ => rfl

/-! ## The first pair: half-width 768, 6 rows a half, from row 7 -/

/-- The product of the pair's two flattened halves with the weights: half `h` of edge `e` is the 6 rows from row
    `7 + 6 h`, flattened, and its entry at column `c` is their sum against column `c`. -/
private theorem prod1_apply (x : (⟨S60000x29x128, .f32⟩ : BufTy).Contents (Elt Ideal)) (w1 : (⟨S768x1536, .f32⟩ : BufTy).Contents (Elt Ideal))
    (e : Fin 60000) (h : Fin 2) (c : Fin 1536) (r : Nat) (hr : r = 7 + 6 * h.val) (hb : r * 128 + 768 ≤ 29 * 128) :
    val_main_v10 (F := Ideal) x w1 (ix3 e h c) = Cert.Spec.dotRow x r 768 1536 hb w1 e c := by
  subst hr
  have he := e.isLt
  have hh := h.isLt
  have hc := c.isLt
  rw [val_main_v10_apply]
  unfold Cert.Spec.dotRow
  refine Finset.sum_congr rfl fun k _ => ?_
  have hk := k.isLt
  rw [val_main_v9_apply, val_main_v1_apply]
  unfold Cert.Spec.flat
  congr 1
  · refine congrArg x (funext fun a => Fin.ext ?_)
    match a with
    | ⟨0, _⟩ => show ((e.val * 2 + h.val) * 768 + k.val) / 1536 = e.val; omega
    | ⟨1, _⟩ => show 7 + ((e.val * 2 + h.val) * 768 + k.val) / 128 % 12 = 7 + 6 * h.val + k.val / 128; omega
    | ⟨2, _⟩ => show ((e.val * 2 + h.val) * 768 + k.val) % 128 = k.val % 128; omega
  · refine congrArg w1 (funext fun a => Fin.ext ?_)
    match a with
    | ⟨0, _⟩ => rfl
    | ⟨1, _⟩ => rfl

/-- The product re-laid as four rows of 768: row `q` is half `q % 2` of the columns of input half `q / 2`. -/
private theorem quarter1_apply (x : (⟨S60000x29x128, .f32⟩ : BufTy).Contents (Elt Ideal)) (w1 : (⟨S768x1536, .f32⟩ : BufTy).Contents (Elt Ideal))
    (e : Fin 60000) (q : Fin 4) (j : Fin 768) (h : Fin 2) (c : Fin 1536) (hh : h.val = q.val / 2)
    (hc : c.val = q.val % 2 * 768 + j.val) :
    val_main_v11 (F := Ideal) x w1 (ix3 e q j) = val_main_v10 (F := Ideal) x w1 (ix3 e h c) := by
  have he := e.isLt
  have hq := q.isLt
  have hj := j.isLt
  rw [val_main_v11_apply]
  refine congrArg (val_main_v10 (F := Ideal) x w1) (funext fun a => Fin.ext ?_)
  match a with
  | ⟨0, _⟩ => show ((e.val * 4 + q.val) * 768 + j.val) / 3072 = e.val; omega
  | ⟨1, _⟩ => show ((e.val * 4 + q.val) * 768 + j.val) / 1536 % 2 = h.val; omega
  | ⟨2, _⟩ => show ((e.val * 4 + q.val) * 768 + j.val) % 1536 = c.val; omega

/-- Row 0 of the four, as a matrix. -/
private theorem row1_0_apply (x : (⟨S60000x29x128, .f32⟩ : BufTy).Contents (Elt Ideal)) (w1 : (⟨S768x1536, .f32⟩ : BufTy).Contents (Elt Ideal)) (e : Fin 60000) (j : Fin 768) :
    val_main_v13 (F := Ideal) x w1 (ix2 e j) = val_main_v11 (F := Ideal) x w1 (ix3 e (⟨0, by omega⟩ : Fin 4) j) := by
  have he := e.isLt
  have hj := j.isLt
  rw [val_main_v13_apply, val_main_v12_apply]
  refine congrArg (val_main_v11 (F := Ideal) x w1) (funext fun a => Fin.ext ?_)
  match a with
  | ⟨0, _⟩ => show (e.val * 768 + j.val) / 768 = e.val; omega
  | ⟨1, _⟩ => rfl
  | ⟨2, _⟩ => show (e.val * 768 + j.val) % 768 = j.val; omega

/-- Row 1 of the four, as a matrix. -/
private theorem row1_1_apply (x : (⟨S60000x29x128, .f32⟩ : BufTy).Contents (Elt Ideal)) (w1 : (⟨S768x1536, .f32⟩ : BufTy).Contents (Elt Ideal)) (e : Fin 60000) (j : Fin 768) :
    val_main_v15 (F := Ideal) x w1 (ix2 e j) = val_main_v11 (F := Ideal) x w1 (ix3 e (⟨1, by omega⟩ : Fin 4) j) := by
  have he := e.isLt
  have hj := j.isLt
  rw [val_main_v15_apply, val_main_v14_apply]
  refine congrArg (val_main_v11 (F := Ideal) x w1) (funext fun a => Fin.ext ?_)
  match a with
  | ⟨0, _⟩ => show (e.val * 768 + j.val) / 768 = e.val; omega
  | ⟨1, _⟩ => rfl
  | ⟨2, _⟩ => show (e.val * 768 + j.val) % 768 = j.val; omega

/-- Row 2 of the four, as a matrix. -/
private theorem row1_2_apply (x : (⟨S60000x29x128, .f32⟩ : BufTy).Contents (Elt Ideal)) (w1 : (⟨S768x1536, .f32⟩ : BufTy).Contents (Elt Ideal)) (e : Fin 60000) (j : Fin 768) :
    val_main_v17 (F := Ideal) x w1 (ix2 e j) = val_main_v11 (F := Ideal) x w1 (ix3 e (⟨2, by omega⟩ : Fin 4) j) := by
  have he := e.isLt
  have hj := j.isLt
  rw [val_main_v17_apply, val_main_v16_apply]
  refine congrArg (val_main_v11 (F := Ideal) x w1) (funext fun a => Fin.ext ?_)
  match a with
  | ⟨0, _⟩ => show (e.val * 768 + j.val) / 768 = e.val; omega
  | ⟨1, _⟩ => rfl
  | ⟨2, _⟩ => show (e.val * 768 + j.val) % 768 = j.val; omega

/-- Row 3 of the four, as a matrix. -/
private theorem row1_3_apply (x : (⟨S60000x29x128, .f32⟩ : BufTy).Contents (Elt Ideal)) (w1 : (⟨S768x1536, .f32⟩ : BufTy).Contents (Elt Ideal)) (e : Fin 60000) (j : Fin 768) :
    val_main_v19 (F := Ideal) x w1 (ix2 e j) = val_main_v11 (F := Ideal) x w1 (ix3 e (⟨3, by omega⟩ : Fin 4) j) := by
  have he := e.isLt
  have hj := j.isLt
  rw [val_main_v19_apply, val_main_v18_apply]
  refine congrArg (val_main_v11 (F := Ideal) x w1) (funext fun a => Fin.ext ?_)
  match a with
  | ⟨0, _⟩ => show (e.val * 768 + j.val) / 768 = e.val; omega
  | ⟨1, _⟩ => rfl
  | ⟨2, _⟩ => show (e.val * 768 + j.val) % 768 = j.val; omega

/-- The first pair's real result. -/
theorem stage_pair1Re (x : (⟨S60000x29x128, .f32⟩ : BufTy).Contents (Elt Ideal)) (w1 : (⟨S768x1536, .f32⟩ : BufTy).Contents (Elt Ideal)) :
    val_main_v20 (F := Ideal) x w1 = Cert.Spec.pair1Re x w1 := by
  funext i
  obtain ⟨e, j, rfl⟩ : ∃ (e : Fin 60000) (j : Fin 768), i = ix2 e j := ⟨i 0, i 1, eq_ix2 i⟩
  have hj := j.isLt
  rw [val_main_v20_apply, row1_0_apply, row1_3_apply,
    quarter1_apply x w1 e ⟨0, by omega⟩ j ⟨0, by omega⟩ ⟨j.val, by omega⟩ (by show 0 = 0 / 2; omega) (by show j.val = 0 % 2 * 768 + j.val; omega),
    quarter1_apply x w1 e ⟨3, by omega⟩ j ⟨1, by omega⟩ ⟨768 + j.val, by omega⟩ (by show 1 = 3 / 2; omega) (by show 768 + j.val = 3 % 2 * 768 + j.val; omega),
    prod1_apply x w1 e ⟨0, by omega⟩ ⟨j.val, by omega⟩ 7 rfl (by norm_num),
    prod1_apply x w1 e ⟨1, by omega⟩ ⟨768 + j.val, by omega⟩ 13 rfl (by norm_num), Ideal.subf_def]
  rfl

/-- The first pair's imaginary result. -/
theorem stage_pair1Im (x : (⟨S60000x29x128, .f32⟩ : BufTy).Contents (Elt Ideal)) (w1 : (⟨S768x1536, .f32⟩ : BufTy).Contents (Elt Ideal)) :
    val_main_v22 (F := Ideal) x w1 = Cert.Spec.pair1Im x w1 := by
  funext i
  obtain ⟨e, j, rfl⟩ : ∃ (e : Fin 60000) (j : Fin 768), i = ix2 e j := ⟨i 0, i 1, eq_ix2 i⟩
  have hj := j.isLt
  rw [val_main_v22_apply, row1_2_apply, row1_1_apply,
    quarter1_apply x w1 e ⟨2, by omega⟩ j ⟨1, by omega⟩ ⟨j.val, by omega⟩ (by show 1 = 2 / 2; omega) (by show j.val = 2 % 2 * 768 + j.val; omega),
    quarter1_apply x w1 e ⟨1, by omega⟩ j ⟨0, by omega⟩ ⟨768 + j.val, by omega⟩ (by show 0 = 1 / 2; omega) (by show 768 + j.val = 1 % 2 * 768 + j.val; omega),
    prod1_apply x w1 e ⟨1, by omega⟩ ⟨j.val, by omega⟩ 13 rfl (by norm_num),
    prod1_apply x w1 e ⟨0, by omega⟩ ⟨768 + j.val, by omega⟩ 7 rfl (by norm_num), Ideal.addf_def]
  rfl

/-! ## The second pair: half-width 640, 5 rows a half, from row 19 -/

/-- The product of the pair's two flattened halves with the weights: half `h` of edge `e` is the 5 rows from row
    `19 + 5 h`, flattened, and its entry at column `c` is their sum against column `c`. -/
private theorem prod2_apply (x : (⟨S60000x29x128, .f32⟩ : BufTy).Contents (Elt Ideal)) (w2 : (⟨S640x1280, .f32⟩ : BufTy).Contents (Elt Ideal))
    (e : Fin 60000) (h : Fin 2) (c : Fin 1280) (r : Nat) (hr : r = 19 + 5 * h.val) (hb : r * 128 + 640 ≤ 29 * 128) :
    val_main_v25 (F := Ideal) x w2 (ix3 e h c) = Cert.Spec.dotRow x r 640 1280 hb w2 e c := by
  subst hr
  have he := e.isLt
  have hh := h.isLt
  have hc := c.isLt
  rw [val_main_v25_apply]
  unfold Cert.Spec.dotRow
  refine Finset.sum_congr rfl fun k _ => ?_
  have hk := k.isLt
  rw [val_main_v24_apply, val_main_v2_apply]
  unfold Cert.Spec.flat
  congr 1
  · refine congrArg x (funext fun a => Fin.ext ?_)
    match a with
    | ⟨0, _⟩ => show ((e.val * 2 + h.val) * 640 + k.val) / 1280 = e.val; omega
    | ⟨1, _⟩ => show 19 + ((e.val * 2 + h.val) * 640 + k.val) / 128 % 10 = 19 + 5 * h.val + k.val / 128; omega
    | ⟨2, _⟩ => show ((e.val * 2 + h.val) * 640 + k.val) % 128 = k.val % 128; omega
  · refine congrArg w2 (funext fun a => Fin.ext ?_)
    match a with
    | ⟨0, _⟩ => rfl
    | ⟨1, _⟩ => rfl

/-- The product re-laid as four rows of 640: row `q` is half `q % 2` of the columns of input half `q / 2`. -/
private theorem quarter2_apply (x : (⟨S60000x29x128, .f32⟩ : BufTy).Contents (Elt Ideal)) (w2 : (⟨S640x1280, .f32⟩ : BufTy).Contents (Elt Ideal))
    (e : Fin 60000) (q : Fin 4) (j : Fin 640) (h : Fin 2) (c : Fin 1280) (hh : h.val = q.val / 2)
    (hc : c.val = q.val % 2 * 640 + j.val) :
    val_main_v26 (F := Ideal) x w2 (ix3 e q j) = val_main_v25 (F := Ideal) x w2 (ix3 e h c) := by
  have he := e.isLt
  have hq := q.isLt
  have hj := j.isLt
  rw [val_main_v26_apply]
  refine congrArg (val_main_v25 (F := Ideal) x w2) (funext fun a => Fin.ext ?_)
  match a with
  | ⟨0, _⟩ => show ((e.val * 4 + q.val) * 640 + j.val) / 2560 = e.val; omega
  | ⟨1, _⟩ => show ((e.val * 4 + q.val) * 640 + j.val) / 1280 % 2 = h.val; omega
  | ⟨2, _⟩ => show ((e.val * 4 + q.val) * 640 + j.val) % 1280 = c.val; omega

/-- Row 0 of the four, as a matrix. -/
private theorem row2_0_apply (x : (⟨S60000x29x128, .f32⟩ : BufTy).Contents (Elt Ideal)) (w2 : (⟨S640x1280, .f32⟩ : BufTy).Contents (Elt Ideal)) (e : Fin 60000) (j : Fin 640) :
    val_main_v28 (F := Ideal) x w2 (ix2 e j) = val_main_v26 (F := Ideal) x w2 (ix3 e (⟨0, by omega⟩ : Fin 4) j) := by
  have he := e.isLt
  have hj := j.isLt
  rw [val_main_v28_apply, val_main_v27_apply]
  refine congrArg (val_main_v26 (F := Ideal) x w2) (funext fun a => Fin.ext ?_)
  match a with
  | ⟨0, _⟩ => show (e.val * 640 + j.val) / 640 = e.val; omega
  | ⟨1, _⟩ => rfl
  | ⟨2, _⟩ => show (e.val * 640 + j.val) % 640 = j.val; omega

/-- Row 1 of the four, as a matrix. -/
private theorem row2_1_apply (x : (⟨S60000x29x128, .f32⟩ : BufTy).Contents (Elt Ideal)) (w2 : (⟨S640x1280, .f32⟩ : BufTy).Contents (Elt Ideal)) (e : Fin 60000) (j : Fin 640) :
    val_main_v30 (F := Ideal) x w2 (ix2 e j) = val_main_v26 (F := Ideal) x w2 (ix3 e (⟨1, by omega⟩ : Fin 4) j) := by
  have he := e.isLt
  have hj := j.isLt
  rw [val_main_v30_apply, val_main_v29_apply]
  refine congrArg (val_main_v26 (F := Ideal) x w2) (funext fun a => Fin.ext ?_)
  match a with
  | ⟨0, _⟩ => show (e.val * 640 + j.val) / 640 = e.val; omega
  | ⟨1, _⟩ => rfl
  | ⟨2, _⟩ => show (e.val * 640 + j.val) % 640 = j.val; omega

/-- Row 2 of the four, as a matrix. -/
private theorem row2_2_apply (x : (⟨S60000x29x128, .f32⟩ : BufTy).Contents (Elt Ideal)) (w2 : (⟨S640x1280, .f32⟩ : BufTy).Contents (Elt Ideal)) (e : Fin 60000) (j : Fin 640) :
    val_main_v32 (F := Ideal) x w2 (ix2 e j) = val_main_v26 (F := Ideal) x w2 (ix3 e (⟨2, by omega⟩ : Fin 4) j) := by
  have he := e.isLt
  have hj := j.isLt
  rw [val_main_v32_apply, val_main_v31_apply]
  refine congrArg (val_main_v26 (F := Ideal) x w2) (funext fun a => Fin.ext ?_)
  match a with
  | ⟨0, _⟩ => show (e.val * 640 + j.val) / 640 = e.val; omega
  | ⟨1, _⟩ => rfl
  | ⟨2, _⟩ => show (e.val * 640 + j.val) % 640 = j.val; omega

/-- Row 3 of the four, as a matrix. -/
private theorem row2_3_apply (x : (⟨S60000x29x128, .f32⟩ : BufTy).Contents (Elt Ideal)) (w2 : (⟨S640x1280, .f32⟩ : BufTy).Contents (Elt Ideal)) (e : Fin 60000) (j : Fin 640) :
    val_main_v34 (F := Ideal) x w2 (ix2 e j) = val_main_v26 (F := Ideal) x w2 (ix3 e (⟨3, by omega⟩ : Fin 4) j) := by
  have he := e.isLt
  have hj := j.isLt
  rw [val_main_v34_apply, val_main_v33_apply]
  refine congrArg (val_main_v26 (F := Ideal) x w2) (funext fun a => Fin.ext ?_)
  match a with
  | ⟨0, _⟩ => show (e.val * 640 + j.val) / 640 = e.val; omega
  | ⟨1, _⟩ => rfl
  | ⟨2, _⟩ => show (e.val * 640 + j.val) % 640 = j.val; omega

/-- The second pair's real result. -/
theorem stage_pair2Re (x : (⟨S60000x29x128, .f32⟩ : BufTy).Contents (Elt Ideal)) (w2 : (⟨S640x1280, .f32⟩ : BufTy).Contents (Elt Ideal)) :
    val_main_v35 (F := Ideal) x w2 = Cert.Spec.pair2Re x w2 := by
  funext i
  obtain ⟨e, j, rfl⟩ : ∃ (e : Fin 60000) (j : Fin 640), i = ix2 e j := ⟨i 0, i 1, eq_ix2 i⟩
  have hj := j.isLt
  rw [val_main_v35_apply, row2_0_apply, row2_3_apply,
    quarter2_apply x w2 e ⟨0, by omega⟩ j ⟨0, by omega⟩ ⟨j.val, by omega⟩ (by show 0 = 0 / 2; omega) (by show j.val = 0 % 2 * 640 + j.val; omega),
    quarter2_apply x w2 e ⟨3, by omega⟩ j ⟨1, by omega⟩ ⟨640 + j.val, by omega⟩ (by show 1 = 3 / 2; omega) (by show 640 + j.val = 3 % 2 * 640 + j.val; omega),
    prod2_apply x w2 e ⟨0, by omega⟩ ⟨j.val, by omega⟩ 19 rfl (by norm_num),
    prod2_apply x w2 e ⟨1, by omega⟩ ⟨640 + j.val, by omega⟩ 24 rfl (by norm_num), Ideal.subf_def]
  rfl

/-- The second pair's imaginary result. -/
theorem stage_pair2Im (x : (⟨S60000x29x128, .f32⟩ : BufTy).Contents (Elt Ideal)) (w2 : (⟨S640x1280, .f32⟩ : BufTy).Contents (Elt Ideal)) :
    val_main_v37 (F := Ideal) x w2 = Cert.Spec.pair2Im x w2 := by
  funext i
  obtain ⟨e, j, rfl⟩ : ∃ (e : Fin 60000) (j : Fin 640), i = ix2 e j := ⟨i 0, i 1, eq_ix2 i⟩
  have hj := j.isLt
  rw [val_main_v37_apply, row2_2_apply, row2_1_apply,
    quarter2_apply x w2 e ⟨2, by omega⟩ j ⟨1, by omega⟩ ⟨j.val, by omega⟩ (by show 1 = 2 / 2; omega) (by show j.val = 2 % 2 * 640 + j.val; omega),
    quarter2_apply x w2 e ⟨1, by omega⟩ j ⟨0, by omega⟩ ⟨640 + j.val, by omega⟩ (by show 0 = 1 / 2; omega) (by show 640 + j.val = 1 % 2 * 640 + j.val; omega),
    prod2_apply x w2 e ⟨1, by omega⟩ ⟨j.val, by omega⟩ 24 rfl (by norm_num),
    prod2_apply x w2 e ⟨0, by omega⟩ ⟨640 + j.val, by omega⟩ 19 rfl (by norm_num), Ideal.addf_def]
  rfl

/-- The reference's whole result is the specification's. -/
theorem result_eq (m : (ℓ : Loc nD τ sig) → Buf (Elt Ideal) ℓ) (c : Dev nD) :
    Cert.ReferenceIdeal.Value.res_main_v39 m c
      = Cert.Spec.result (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) := by
  rw [val_main_v39_eq]
  unfold val_main_v39 val_main_v8 val_main_v21 val_main_v23 val_main_v36 val_main_v38
  rw [stage_group0, stage_pair1Re, stage_pair1Im, stage_pair2Re, stage_pair2Im]
  rfl

end Cert.ReferenceIdeal.Stages

end
-- ==== Proof.lean ====
/-
  The kernel against its reference, over the extended reals.

  The kernel cuts the 29 feature rows of each edge into five flat operands on the host, and one region over 150
  blocks of 400 edges multiplies each by its weights: the first group's 896 entries by `w0` with the bias added;
  for each complex pair, with `P` the real rows' product and `Q` the imaginary rows', the results `P[:, j] − Q[:, H + j]`
  and `Q[:, j] + P[:, H + j]`. The host then re-lays the five results as rows of 128 lanes and stacks them. The
  reference forms the same products as one contraction per pair over a `[2, H]` view of the pair's rows, re-lays the
  `[2, 2H]` result as four rows of `H` and combines rows 0 and 3, 2 and 1. Both are the specification's function
  (`Cert.Spec.result`): each entry is the same finite sum of the same products, so no law beyond re-indexing is
  needed and the precondition is not used. The narrowing of the operands to the short float format is the
  identity on the extended reals.

  The three frames: each kernel program terminates without a fault with its arguments unchanged because the body
  at every grid point only loads its input blocks and stores its results over whole result buffers, and no host line
  writes an argument; the reference is host lines only. The idealization rewrote nothing, so `preserves` is trivial.
-/
import proofs.«134896_j3470333575341_1_alg».proof.Defs
import proofs.«134896_j3470333575341_1_alg».proof.Proof.Gen.Kernel
import proofs.«134896_j3470333575341_1_alg».proof.Proof.Gen.KernelIdeal
import proofs.«134896_j3470333575341_1_alg».proof.Proof.Gen.ReferenceIdeal
import proofs.«134896_j3470333575341_1_alg».proof.Proof.Gen.Pre_finite_inputs
import proofs.«134896_j3470333575341_1_alg».proof.Proof.Gen.ReferenceIdeal.Run
import proofs.«134896_j3470333575341_1_alg».proof.Proof.RegionRun
import proofs.«134896_j3470333575341_1_alg».proof.Proof.RegionRunB
import proofs.«134896_j3470333575341_1_alg».proof.Proof.ResultValue
import proofs.«134896_j3470333575341_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ResultValue.result_eq m c), (h c).2⟩)
      (Cert.KernelIdeal.Region.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stages.result_eq, (hagree c).1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
